-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096x4096 : Shape := ⟨2, ![4096, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S512x4096 .f32) (main_arg1 : FVec F S4096x4096 .f32) (main_arg2 : FVec F S4096x4096 .f32) (main_arg3 : FVec F S4096x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S512x4096 : Shape := ⟨2, ![512, 4096]⟩
abbrev S4096x4096 : Shape := ⟨2, ![4096, 4096]⟩
abbrev S512x1024 : Shape := ⟨2, ![512, 1024]⟩
abbrev S512x512 : Shape := ⟨2, ![512, 512]⟩
abbrev S1x1 : Shape := ⟨2, ![1, 1]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 7
  | .vmem => 19
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S512x4096, .f32⟩
  | .hbm, ⟨5, _⟩ => ⟨S1x1, .f32⟩
  | .hbm, ⟨6, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1, .f32⟩
  | .local _ .vmem, ⟨18, _⟩ => ⟨S1x1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_cond2 (i : grid1.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v74 : BitVec 32 := Scalar.extui v5
  let c0_i32_27 : BitVec 32 := 0#32
  let v75 : BitVec 1 := Scalar.cmpi .ne v74 c0_i32_27
  v75

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x4096.size a
  hwx0_0 : ∀ i : grid0.Coords, EltTy.bits .f32 = 32 ∨ (Rect.block (s := S512x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x4096.size a
  hwx0_4 : ∀ i : grid0.Coords, EltTy.bits .f32 = 32 ∨ (Rect.block (s := S512x4096) S512x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x4096 : Shape := ⟨2, ![512, 4096]⟩
abbrev S4096x4096 : Shape := ⟨2, ![4096, 4096]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  dot_S512x4096_S4096x4096_S512x4096_1_1_0_0_n_n_wf : DotDims.WF S512x4096 S4096x4096 S512x4096 [1] [1] [0] [0] [] []

variable [Facts₀]

def dot_S512x4096_S4096x4096_S512x4096_1_1_0_0_n_n : DotDims S512x4096 S4096x4096 S512x4096 where
  lhsContracting := [1]
  rhsContracting := [1]
  lhsNonContracting := [0]
  rhsNonContracting := [0]
  lhsBatch := []
  rhsBatch := []
  wf := dot_S512x4096_S4096x4096_S512x4096_1_1_0_0_n_n_wf

class Facts : Prop extends Facts₀ where

variable [Facts]
-- ==== Proof.RefFrame.lean ====
/-
  The reference program's frame: it runs to the end, faults nowhere, and leaves its four argument arrays as launched.
  The reference is host operations only, so its run is the composition of its operations' pure terms; the frame is that
  run with the results' values dropped.
-/
import proofs.«161406_j5574867550300_1_alg».proof.Defs
import proofs.«161406_j5574867550300_1_alg».proof.Proof.Gen.ReferenceIdeal.Run
import proofs.«161406_j5574867550300_1_alg».proof.Proof.Gen.ReferenceIdeal.Read
import proofs.«161406_j5574867550300_1_alg».proof.Proof.Gen.Pre_finite_inputs

noncomputable section

open Idealize.ShloMosaic Idealize.ShloMosaic.TcCoe Idealize.SL.Sem

namespace Cert.Proof.RefFrame

/-- Every weakly fair execution of the reference terminates without a fault and keeps the arguments. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefFrame

end
-- ==== Proof.Spec.lean ====
/-
  What the two programs compute, stated once.

  Per entry of the three weight arrays (mean `μ`, raw scale `σ`, noise `ε`):
    softplus s   = max s 0 + log1p (exp (0 - |s - 0|))         (the guard on `s - 0 ≠ s - 0` picks `s + 0`)
    weight       = μ + softplus σ · ε
    qlog         = (0 - (μ - weight)²) / (2 · softplus σ) - ½ · log (softplus σ)
    gauss w      = exp (0 - (0 - w)²)
    prior w      = log (½ · (g₁ · gauss w / 2) + ½ · (g₂ · gauss w / v₂))
    klTerm       = qlog - prior weight
  with the literal words g₁ = 0x3ECC4F46, g₂ = 0x407F6317, v₂ = 0x3CA3D70A kept as words: both programs carry the same ones.
  These are written at any float instance `F`, operation by operation as the kernel's body has them, so that a block of
  the kernel's vector arithmetic read at one index IS the scalar function of the operands at that index.

  The two results, at the ideal instance (floats are extended reals):
    y[b, o] = Σ_k x[b, k] · weight(μ[o, k], σ[o, k], ε[o, k])           the linear layer, no bias
    kl      = (0 + Σ_{(o,k)} klTerm(μ[o,k], σ[o,k], ε[o,k])) / 2²⁴       the mean of the per-weight terms
-/
import Idealize.ShloMosaic.PureOps
import Idealize.ShloMosaic.Lib.ValueIdx

noncomputable section

namespace Cert.Spec

open Idealize.ShloMosaic

variable {F : FTy → Type} [FloatOps F]

/-- The float words the bodies carry. -/
def c0 : F .f32 := FloatOps.ofBits .f32 0x00000000#32
def c2 : F .f32 := FloatOps.ofBits .f32 0x40000000#32
def cHalf : F .f32 := FloatOps.ofBits .f32 0x3F000000#32
def cG1 : F .f32 := FloatOps.ofBits .f32 0x3ECC4F46#32
def cG2 : F .f32 := FloatOps.ofBits .f32 0x407F6317#32
def cV2 : F .f32 := FloatOps.ofBits .f32 0x3CA3D70A#32
def cN : F .f32 := FloatOps.ofBits .f32 0x4B800000#32

/-- `log (1 + exp s)` in its overflow-safe form, with the guard on `s - 0` being unequal to itself. -/
def softplus (s : F .f32) : F .f32 :=
  Scalar.select (FloatOps.cmpf .one (FloatOps.subf s c0) (FloatOps.subf s c0)) (FloatOps.addf s c0)
    (FloatOps.addf (FloatOps.maximumf s c0)
      (FloatOps.log1p (FloatOps.exp (FloatOps.subf c0 (FloatOps.absf (FloatOps.subf s c0))))))

/-- The sampled weight. -/
def weight (μ σ ε : F .f32) : F .f32 := FloatOps.addf μ (FloatOps.mulf (softplus σ) ε)

/-- The variational posterior's log density term. -/
def qlog (μ σ ε : F .f32) : F .f32 :=
  FloatOps.subf
    (FloatOps.divf
      (FloatOps.subf c0 (FloatOps.mulf (FloatOps.subf μ (weight μ σ ε)) (FloatOps.subf μ (weight μ σ ε))))
      (FloatOps.mulf c2 (softplus σ)))
    (FloatOps.mulf cHalf (FloatOps.log (softplus σ)))

/-- `exp (-(0 - w)²)`. -/
def gauss (w : F .f32) : F .f32 :=
  FloatOps.exp (FloatOps.subf c0 (FloatOps.mulf (FloatOps.subf c0 w) (FloatOps.subf c0 w)))

/-- The two-component mixture prior's log density term. -/
def prior (w : F .f32) : F .f32 :=
  FloatOps.log (FloatOps.addf
    (FloatOps.mulf cHalf (FloatOps.divf (FloatOps.mulf cG1 (gauss w)) c2))
    (FloatOps.mulf cHalf (FloatOps.divf (FloatOps.mulf cG2 (gauss w)) cV2)))

/-- One weight's contribution to the divergence. -/
def klTerm (μ σ ε : F .f32) : F .f32 := FloatOps.subf (qlog μ σ ε) (prior (weight μ σ ε))

/-! ## The results as whole-array functions, at the ideal instance -/

abbrev SX : Shape := ⟨2, ![512, 4096]⟩
abbrev SW : Shape := ⟨2, ![4096, 4096]⟩
abbrev S0 : Shape := ⟨0, ![]⟩

/-- Entry `(b, k)` of the activations read from output entry `i = (b, o)`. -/
abbrev xAt (i : SX.Idx) (k : Fin 4096) : SX.Idx := fun a => match a with
  | ⟨0, _⟩ => ⟨(i 0).val, (i 0).isLt⟩
  | ⟨1, _⟩ => ⟨k.val, k.isLt⟩
/-- Entry `(o, k)` of a weight array read from output entry `i = (b, o)`. -/
abbrev wAt (i : SX.Idx) (k : Fin 4096) : SW.Idx := fun a => match a with
  | ⟨0, _⟩ => ⟨(i 1).val, (i 1).isLt⟩
  | ⟨1, _⟩ => ⟨k.val, k.isLt⟩

/-- The linear layer: `y[b, o] = Σ_k x[b, k] · weight[o, k]`. -/
def ySpec (x : SX.Idx → Ideal .f32) (μ σ ε : SW.Idx → Ideal .f32) : SX.Idx → Ideal .f32 :=
  fun i => ∑ k : Fin 4096, x (xAt i k) * weight (μ (wAt i k)) (σ (wAt i k)) (ε (wAt i k))

/-- The divergence: the mean of `klTerm` over all weights, as a sum from zero divided by their number. -/
def klSpec (μ σ ε : SW.Idx → Ideal .f32) : S0.Idx → Ideal .f32 :=
  fun _ => FloatOps.divf ((c0 : Ideal .f32) + ∑ j : SW.Idx, klTerm (μ j) (σ j) (ε j)) cN

end Cert.Spec

end
-- ==== Proof.RefValue.lean ====
/-
  The reference program's two results are the specification's functions.

  The reference is read one operation at a time (the generated reading module gives each operation's value at an
  index from its operands' values at an index). Chaining those readings, the value of the sampled-weight stage at an
  entry is an expression in the three weight arrays' entries there, and it is the specification's `weight` up to four
  spellings that name one function on the extended reals:
    * the comparison "unordered or unequal" against "ordered and unequal": nothing is unordered there;
    * negation `-t` against `0 - t`;
    * the host's absolute value, exponential, logarithms against the kernel's;
    * the host's division against the kernel's.
  The same for the per-weight divergence term. The linear layer is then a sum of products of the same factors, and the
  mean divergence the same total sum divided by the same word.
-/
import proofs.«161406_j5574867550300_1_alg».proof.Proof.Spec
import proofs.«161406_j5574867550300_1_alg».proof.Proof.Gen.ReferenceIdeal.Read

noncomputable section

namespace Cert.Proof.RefValue

open Idealize.ShloMosaic Cert.ReferenceIdeal Cert.ReferenceIdeal.Read

/-- The reference's softplus stage is the specification's `softplus`, entry by entry. -/
theorem ref_softplus (x2 : (⟨S4096x4096, .f32⟩ : BufTy).Contents (Elt Ideal)) (j : S4096x4096.Idx) :
    val_main_v0 (F := Ideal) x2 j = Cert.Spec.softplus (F := Ideal) (x2 j) := by
  simp only [val_main_v0_apply, val_main_call0_v4_apply, val_main_call0_v3_apply, val_main_call0_v2_apply,
    val_main_call0_cst_apply, val_main_call0_v6_apply, val_main_call0_v5_apply, val_main_call0_v11_apply,
    val_main_call0_v1_apply, val_main_call0_v0_apply, val_main_call0_v10_apply, val_main_call0_v9_apply,
    val_main_call0_v8_apply, val_main_call0_v7_apply]
  -- both sides are now scalar expressions in `x2 j`; on the extended reals `≠` has one reading and `0 - t = -t`
  simp only [Cert.Spec.softplus, Cert.Spec.c0, Ideal.cmpf_def, Ideal.cmp, Ideal.hostUnary_log1p_def, Ideal.hostUnary_exp_def,
    Ideal.hostNegf_def, Ideal.hostAbsf_def, Ideal.log1p_def, Ideal.exp_def, Ideal.negf_def, Ideal.subf_def, Ideal.ofBits_def,
    Ideal.ofBits_zero_f32, zero_sub]

/-- The reference's sampled-weight stage is the specification's `weight`, entry by entry. -/
theorem ref_weight (x1 x2 x3 : (⟨S4096x4096, .f32⟩ : BufTy).Contents (Elt Ideal)) (j : S4096x4096.Idx) :
    val_main_v2 (F := Ideal) x1 x2 x3 j = Cert.Spec.weight (F := Ideal) (x1 j) (x2 j) (x3 j) := by
  rw [val_main_v2_apply, val_main_v1_apply, ref_softplus]
  rfl

/-- The reference's per-weight divergence term is the specification's `klTerm`, entry by entry. -/
theorem ref_term (x1 x2 x3 : (⟨S4096x4096, .f32⟩ : BufTy).Contents (Elt Ideal)) (j : S4096x4096.Idx) :
    val_main_v37 (F := Ideal) x1 x2 x3 j = Cert.Spec.klTerm (F := Ideal) (x1 j) (x2 j) (x3 j) := by
  simp only [val_main_v37_apply, val_main_v12_apply, val_main_v8_apply, val_main_v5_apply, val_main_v4_apply,
    val_main_v3_apply, val_main_v7_apply, val_main_v6_apply, val_main_cst_apply, val_main_v11_apply, val_main_v10_apply,
    val_main_cst_0_apply, val_main_v9_apply, val_main_v36_apply, val_main_v35_apply, val_main_v23_apply,
    val_main_v22_apply, val_main_cst_4_apply, val_main_v21_apply, val_main_v19_apply, val_main_v18_apply,
    val_main_cst_2_apply, val_main_v17_apply, val_main_v16_apply, val_main_v15_apply, val_main_v14_apply,
    val_main_v13_apply, val_main_cst_1_apply, val_main_v20_apply, val_main_cst_3_apply, val_main_v34_apply,
    val_main_v33_apply, val_main_cst_8_apply, val_main_v32_apply, val_main_v30_apply, val_main_v29_apply,
    val_main_cst_6_apply, val_main_v28_apply, val_main_v27_apply, val_main_v26_apply, val_main_v25_apply,
    val_main_v24_apply, val_main_cst_5_apply, val_main_v31_apply, val_main_cst_7_apply, ref_weight, ref_softplus]
  -- the stage at `j` in terms of `weight` and `softplus` there; the host's division, logarithm, exponential and negation
  -- are the kernel's on the extended reals, and `0 - t = -t`
  simp only [Cert.Spec.klTerm, Cert.Spec.qlog, Cert.Spec.prior, Cert.Spec.gauss, Cert.Spec.c0, Cert.Spec.c2, Cert.Spec.cHalf,
    Cert.Spec.cG1, Cert.Spec.cG2, Cert.Spec.cV2, Ideal.hostDivf_def, Ideal.divf_def, Ideal.hostUnary_log_def,
    Ideal.hostUnary_exp_def, Ideal.log_def, Ideal.exp_def, Ideal.hostNegf_def, Ideal.negf_def, Ideal.subf_def,
    Ideal.ofBits_def, Ideal.ofBits_zero_f32, zero_sub]

/-- The reference's linear layer is `ySpec`. -/
theorem ref_y (x0 : (⟨S512x4096, .f32⟩ : BufTy).Contents (Elt Ideal)) (x1 x2 x3 : (⟨S4096x4096, .f32⟩ : BufTy).Contents (Elt Ideal)) :
    val_main_v40 (F := Ideal) x0 x1 x2 x3 = Cert.Spec.ySpec x0 x1 x2 x3 := by
  funext i
  rw [val_main_v40_apply]
  -- term by term: the same entry of the activations times the same sampled weight
  refine Finset.sum_congr rfl fun k _ => ?_
  rw [ref_weight]
  rfl

/-- The reference's mean divergence is `klSpec`. -/
theorem ref_kl (x1 x2 x3 : (⟨S4096x4096, .f32⟩ : BufTy).Contents (Elt Ideal)) :
    val_main_v39 (F := Ideal) x1 x2 x3 = Cert.Spec.klSpec x1 x2 x3 := by
  funext i
  rw [val_main_v39_apply, val_main_v38_apply, val_main_cst_9_apply, val_main_cst_10_apply]
  -- the same total sum from the same zero word, divided by the same word by one division
  simp only [ref_term]
  rfl

end Cert.Proof.RefValue

end
-- ==== Proof.BitsMatmulRuns.lean ====
/-
  The linear layer's kernel region (the first of the program's two): its schedule and its body, case by case.

  The grid has 8 × 4 points, point t = 4·o + i for output column block o and reduction block i. The body
    * where i = 0 first stores zeros into its 512×512 accumulator (a scratch buffer it keeps between points),
    * then at every point adds to the accumulator the product of the activations' block with the sampled weights' block,
    * and where i = 3 copies the accumulator into the output window's buffer, which the pipeline writes back there.
  So a point is in one of three cases: i = 0 (reset, no write-back), 0 < i < 3 (neither), i = 3 (write-back). Here: the
  two branch conditions in closed form over the grid, where the output window is idle, and the body run once per case on
  arbitrary whole buffers — the pieces each run leaves in the accumulator (and, at i = 3, in the output buffer) are found
  by running it.
-/
import proofs.«161406_j5574867550300_1_alg».proof.Proof.Gen.Kernel.Launch
import proofs.«161406_j5574867550300_1_alg».proof.Proof.Gen.Kernel.Skeleton
import proofs.«161406_j5574867550300_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The reset branch is taken: the reduction coordinate is 0. -/
abbrev condReset (i : grid0.Coords) : Prop :=
  (Scalar.cmpi .ne (Scalar.extui (Scalar.cmpi .eq (BitVec.ofNat 32 (i 1).val) 0#32)) 0#32) = 1#1
theorem condReset_iff : ∀ t : Fin cfg0.N, condReset (grid0.coords t) ↔ t.val % 4 = 0 :=
  (by decide +kernel : ∀ t : Fin grid0.N, condReset (grid0.coords t) ↔ t.val % 4 = 0)

/-- The write-back branch is taken: the reduction coordinate is 3. -/
abbrev condFlush (i : grid0.Coords) : Prop := k0_cond2 i = 1#1
theorem condFlush_iff : ∀ t : Fin cfg0.N, condFlush (grid0.coords t) ↔ t.val % 4 = 3 :=
  (by decide +kernel : ∀ t : Fin grid0.N, condFlush (grid0.coords t) ↔ t.val % 4 = 3)

/-! ## Where the output window is idle -/

/-- Away from the last reduction step the output window is idle and is not written back. -/
theorem idleOut : ∀ t : Fin cfg0.N, ¬ t.val % 4 = 3 → cfg0.idle 4 (grid0.coords t) = true :=
  (by decide +kernel : ∀ t : Fin grid0.N, ¬ t.val % 4 = 3 → cfg0.idle 4 (grid0.coords t) = true)
theorem noFlushOut (t : Fin cfg0.N) (h : ¬ t.val % 4 = 3) : (cfg0.win 4).flush t = false := by
  cases hf : (cfg0.win 4).flush t
  · rfl
  · exact absurd ((flush0_4 t).mp hf) h
/-- At the last reduction step it is live. -/
theorem liveOut : ∀ t : Fin cfg0.N, t.val % 4 = 3 → cfg0.idle 4 (grid0.coords t) = false :=
  (by decide +kernel : ∀ t : Fin grid0.N, t.val % 4 = 3 → cfg0.idle 4 (grid0.coords t) = false)

/-! ## The buffers the body is called on -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev accM : Memref sig .tc .vmem S512x512 .f32 := Memref.whole cc0_scratch0
/-- The views through which the accumulator's and the output buffer's contents are stated. -/
abbrev accV : View sig .tc .vmem S512x512 .f32 := accM.view
abbrev outV : View sig .tc .vmem S512x512 .f32 := (Memref.whole cc0_stg4_0 : Memref sig .tc .vmem S512x512 .f32).view

/-! ## The body, case by case -/

set_option maxHeartbeats 4000000 in
/-- 0 < i < 3: the four input buffers at their contents, the idle output buffer handed back untouched, the accumulator at
    what the point before left: the body runs and leaves the accumulator with the found pieces written. -/
noncomputable def runMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : ¬condFlush i)
    (x0 x1 x2 x3 : Vec F S512x1024 .f32) (xs : Vec F S512x512 .f32) :
    { LS : List (View.Piece (Elt F) S512x512 .f32) //
      ∀ (xi : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg2 harg2 arg3 harg3 arg4 harg4 arg5 harg5 arg6 harg6 arg7 harg7) K } := by
  refine ⟨?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- i = 0: the accumulator at anything (it is reset before it is read); otherwise as `runMid`. -/
noncomputable def runReset (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : condReset i) (hc1 : ¬condFlush i)
    (x0 x1 x2 x3 : Vec F S512x1024 .f32) :
    { LS : List (View.Piece (Elt F) S512x512 .f32) //
      ∀ (xi : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg2 harg2 arg3 harg3 arg4 harg4 arg5 harg5 arg6 harg6 arg7 harg7) K } := by
  refine ⟨?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- i = 3: the output buffer at anything (it is stored whole); the accumulator at what the point before left. The body
    leaves the found pieces in the output buffer and in the accumulator. -/
noncomputable def runFlush (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) :
    Σ' (LO : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg2 harg2 arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

/-! ## The pieces cover their buffers -/

theorem coverMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : ¬condFlush i)
    (x0 x1 x2 x3 : Vec F S512x1024 .f32) (xs : Vec F S512x512 .f32) (y : S512x512.Idx) :
    ∃ pc ∈ (runMid c i arg2 harg2 arg3 harg3 arg4 harg4 arg5 harg5 arg6 harg6 arg7 harg7 hc0 hc1 x0 x1 x2 x3 xs).1, y ∈ pc.1.set :=
  View.cover_of_tiledL _ S512x512.size (by sl_kernel_rfl) y

theorem coverReset (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : condReset i) (hc1 : ¬condFlush i)
    (x0 x1 x2 x3 : Vec F S512x1024 .f32) (y : S512x512.Idx) :
    ∃ pc ∈ (runReset c i arg2 harg2 arg3 harg3 arg4 harg4 arg5 harg5 arg6 harg6 arg7 harg7 hc0 hc1 x0 x1 x2 x3).1, y ∈ pc.1.set :=
  View.cover_of_tiledL _ S512x512.size (by sl_kernel_rfl) y

theorem coverFlushAcc (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) (y : S512x512.Idx) :
    ∃ pc ∈ (runFlush c i arg2 harg2 arg3 harg3 arg4 harg4 arg5 harg5 arg6 harg6 arg7 harg7 hc0 hc1 x0 x1 x2 x3 xs).2.1, y ∈ pc.1.set :=
  View.cover_of_tiledL _ S512x512.size (by sl_kernel_rfl) y

theorem coverFlushOut (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) (y : S512x512.Idx) :
    ∃ pc ∈ (runFlush c i arg2 harg2 arg3 harg3 arg4 harg4 arg5 harg5 arg6 harg6 arg7 harg7 hc0 hc1 x0 x1 x2 x3 xs).1, y ∈ pc.1.set :=
  View.cover_of_tiledL _ S512x512.size (by sl_kernel_rfl) y

/-! ## What each case leaves, read back -/

/-- The accumulator after a point with 0 < i < 3. -/
def accMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : ¬condFlush i)
    (x0 x1 x2 x3 : Vec F S512x1024 .f32) (xs : Vec F S512x512 .f32) : Vec F S512x512 .f32 :=
  accV.read (Elt F) (accV.writes (Elt F) accV.junk (runMid c i arg2 harg2 arg3 harg3 arg4 harg4 arg5 harg5 arg6 harg6 arg7 harg7 hc0 hc1 x0 x1 x2 x3 xs).1)
/-- The accumulator after a point with i = 0. -/
def accReset (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : condReset i) (hc1 : ¬condFlush i)
    (x0 x1 x2 x3 : Vec F S512x1024 .f32) : Vec F S512x512 .f32 :=
  accV.read (Elt F) (accV.writes (Elt F) accV.junk (runReset c i arg2 harg2 arg3 harg3 arg4 harg4 arg5 harg5 arg6 harg6 arg7 harg7 hc0 hc1 x0 x1 x2 x3).1)
/-- The accumulator after a point with i = 3. -/
def accFlush (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) : Vec F S512x512 .f32 :=
  accV.read (Elt F) (accV.writes (Elt F) accV.junk (runFlush c i arg2 harg2 arg3 harg3 arg4 harg4 arg5 harg5 arg6 harg6 arg7 harg7 hc0 hc1 x0 x1 x2 x3 xs).2.1)
/-- The output buffer after a point with i = 3. -/
def outFlush (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) : Vec F S512x512 .f32 :=
  outV.read (Elt F) (outV.writes (Elt F) outV.junk (runFlush c i arg2 harg2 arg3 harg3 arg4 harg4 arg5 harg5 arg6 harg6 arg7 harg7 hc0 hc1 x0 x1 x2 x3 xs).1)

end Cert.Kernel.MM

end
-- ==== Proof.BitsMatmulFrame.lean ====
/-
  The linear layer's kernel region: what its accumulator holds after each grid point, the region's invariant, its
  proof data at ANY contents `V` of the core's buffers when the region is entered, and the body obligation at every point.

  The accumulator after point n is defined by recursion on n: at a point with reduction coordinate 0 what the reset case
  leaves from the point's four input blocks; at any other point what the accumulating case leaves from the blocks and
  from the accumulator after point n - 1. The output window's buffer after a point with reduction coordinate 3 is what
  that case stores into it; at the other points the window is idle and its buffer is handed back as found.
  The invariant before the first point is the region's scoped buffers at anything; before any later point it is the
  accumulator at the value after the point before, the other region's scoped buffers at anything, and the generator
  register at some state.
-/
import proofs.«161406_j5574867550300_1_alg».proof.Proof.Gen.Kernel.Launch
import proofs.«161406_j5574867550300_1_alg».proof.Proof.Gen.Kernel.Skeleton
import proofs.«161406_j5574867550300_1_alg».proof.Proof.Gen.Kernel.Points
import proofs.«161406_j5574867550300_1_alg».proof.Proof.BitsMatmulRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.MM

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The accumulator after each point -/

/-- What the accumulator holds after the body at position `n`. -/
def accAt (c : Dev nD) : (n : ℕ) → n < cfg0.N → Vec F S512x512 .f32
  | 0, hn => accReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((condReset_iff ⟨0, hn⟩).mpr (Nat.zero_mod _))
      (fun h => absurd ((condFlush_iff ⟨0, hn⟩).mp h) (by (try dsimp only); omega)) (iblk V c 0 ⟨0, hn⟩) (iblk V c 1 ⟨0, hn⟩) (iblk V c 2 ⟨0, hn⟩) (iblk V c 3 ⟨0, hn⟩)
  | n + 1, hn =>
    if h0 : (n + 1) % 4 = 0 then
      accReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((condReset_iff ⟨n + 1, hn⟩).mpr h0)
        (fun h => absurd ((condFlush_iff ⟨n + 1, hn⟩).mp h) (by (try dsimp only); omega)) (iblk V c 0 ⟨n + 1, hn⟩) (iblk V c 1 ⟨n + 1, hn⟩) (iblk V c 2 ⟨n + 1, hn⟩) (iblk V c 3 ⟨n + 1, hn⟩)
    else if h1 : (n + 1) % 4 = 3 then
      accFlush c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((condReset_iff ⟨n + 1, hn⟩).mp h)) ((condFlush_iff ⟨n + 1, hn⟩).mpr h1)
        (iblk V c 0 ⟨n + 1, hn⟩) (iblk V c 1 ⟨n + 1, hn⟩) (iblk V c 2 ⟨n + 1, hn⟩) (iblk V c 3 ⟨n + 1, hn⟩) (accAt c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((condReset_iff ⟨n + 1, hn⟩).mp h)) (fun h => h1 ((condFlush_iff ⟨n + 1, hn⟩).mp h))
        (iblk V c 0 ⟨n + 1, hn⟩) (iblk V c 1 ⟨n + 1, hn⟩) (iblk V c 2 ⟨n + 1, hn⟩) (iblk V c 3 ⟨n + 1, hn⟩) (accAt c n (Nat.lt_of_succ_lt hn))

/-- At a point with reduction coordinate 0: the reset case's contents. -/
theorem accAt_reset (c : Dev nD) (t : Fin cfg0.N) (h0 : t.val % 4 = 0)
    (hc0 : condReset (grid0.coords t)) (hc1 : ¬condFlush (grid0.coords t)) :
    accAt V c t.val t.isLt = accReset c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t) := by
  obtain ⟨n, hn⟩ := t
  cases n with
  | zero => rfl
  | succ n => exact (dif_pos h0).trans rfl

/-- At a point with reduction coordinate 1 or 2: the accumulating case's contents over what the point before left. -/
theorem accAt_mid (c : Dev nD) (t : Fin cfg0.N) (h0 : ¬t.val % 4 = 0) (h1 : ¬t.val % 4 = 3)
    (hc0 : ¬condReset (grid0.coords t)) (hc1 : ¬condFlush (grid0.coords t)) :
    accAt V c t.val t.isLt = accMid c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- At a point with reduction coordinate 3: the write-back case's contents over what the point before left. -/
theorem accAt_flush (c : Dev nD) (t : Fin cfg0.N) (h0 : ¬t.val % 4 = 0) (h1 : t.val % 4 = 3)
    (hc0 : ¬condReset (grid0.coords t)) (hc1 : condFlush (grid0.coords t)) :
    accAt V c t.val t.isLt = accFlush c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body at point `t`: at reduction coordinate 3 what that case stores,
    from the blocks and the accumulator after the point before; elsewhere a value nothing reads (the window is idle). -/
def outAt (c : Dev nD) (t : Fin cfg0.N) : Vec F S512x512 .f32 :=
  if h1 : t.val % 4 = 3 then
    outFlush c (grid0.coords t) (ms0 t) (hs0 t) (ms1 t) (hs1 t) (ms2 t) (hs2 t) (ms3 t) (hs3 t) (ms4 t) (hs4 t) accM (Memref.isWhole_whole _) (fun h => by have := (condReset_iff t).mp h; omega) ((condFlush_iff t).mpr h1)
      (iblk V c 0 t) (iblk V c 1 t) (iblk V c 2 t) (iblk V c 3 t) (accAt V c (t.val - 1) (Nat.lt_of_le_of_lt (Nat.sub_le _ _) t.isLt))
  else outV.read (Elt F) outV.junk

theorem outAt_flush (c : Dev nD) (t : Fin cfg0.N) (h1 : t.val % 4 = 3)
    (hc0 : ¬condReset (grid0.coords t)) (hc1 : condFlush (grid0.coords t)) :
    outAt V c t = outFlush c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t)
      (accAt V c (t.val - 1) (Nat.lt_of_le_of_lt (Nat.sub_le _ _) t.isLt)) := by
  unfold outAt; exact (dif_pos h1).trans rfl

/-! ## The region's invariant -/

/-- The other region's scoped buffers, each whole at some contents: this region leaves them alone. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region's scoped rest with the accumulator as a buffer owned at some contents. -/
theorem PhiA_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

/-- The invariant before position `n`. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others (F := F) c) ∗ (∃ r, prngReg c r)) := by
  cases n with
  | zero => exact absurd rfl hz
  | succ n => rfl

/-! ## The proof data -/

/-- The region's proof data on core `c`: the arrays as the region finds them; after the body at point `t` each input's
    buffer at its block and the output's at `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = outAt V c t := by dsimp only [dat]
theorem before0 (c : Dev nD) (t : Fin cfg0.N) (d) : (dat V c).before 0 t d = iblk V c 0 t := before_of_0 V (dat V c) (A_eq V c 0) (after0 V c) t d
theorem before1 (c : Dev nD) (t : Fin cfg0.N) (d) : (dat V c).before 1 t d = iblk V c 1 t := before_of_1 V (dat V c) (A_eq V c 1) (after1 V c) t d
theorem before2 (c : Dev nD) (t : Fin cfg0.N) (d) : (dat V c).before 2 t d = iblk V c 2 t := before_of_2 V (dat V c) (A_eq V c 2) (after2 V c) t d
theorem before3 (c : Dev nD) (t : Fin cfg0.N) (d) : (dat V c).before 3 t d = iblk V c 3 t := before_of_3 V (dat V c) (A_eq V c 3) (after3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
/-- The body at any point. The inputs' buffers hold their blocks; the reduction coordinate says which case the point is in;
    the invariant hands the body the accumulator (at anything at the very first point, else at what the point before left)
    and takes it back at this point's contents; the idle output buffer goes through untouched, and at reduction
    coordinate 3 it is left at what the case stores. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 4 = 0
  · have h1 : ¬ t.val % 4 = 3 := by omega
    have hc0 : condReset (grid0.coords t) := (condReset_iff t).mpr h0
    have hc1 : ¬condFlush (grid0.coords t) := fun h => h1 ((condFlush_iff t).mp h)
    rw [Dat.leavesExact_idle (dat V c) 4 t (idleOut t h1) (noFlushOut t h1)]
    rw [accAt_reset V c t h0 hc0 hc1]
    unfold accReset; (try dsimp only)
    by_cases hz : t.val = 0
    · rw [Phi_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ hc0 hc1 (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverReset c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ hc0 hc1 (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverReset c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬condReset (grid0.coords t) := fun h => h0 ((condReset_iff t).mp h)
    by_cases h1 : t.val % 4 = 3
    · have hc1 : condFlush (grid0.coords t) := (condFlush_iff t).mpr h1
      rw [show (dat V c).leavesExact 4 t = owns (c : Thread nD τ) (ms4 t) fullShare ((dat V c).after 4 t) from by
        unfold Dat.leavesExact; rw [liveOut t h1], after4]
      rw [accAt_flush V c t h0 h1 hc0 hc1, outAt_flush V c t h1 hc0 hc1]
      unfold accFlush outFlush; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFlush c (grid0.coords t) _ _ _ _ _ _ _ _ _ _ _ _ hc0 hc1 (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverFlushAcc c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverFlushOut c _ _ _ _ _ _ _ _ _ _ _ _ _ _ _ _ _ _ _ _)
    · have hc1 : ¬condFlush (grid0.coords t) := fun h => h1 ((condFlush_iff t).mp h)
      rw [Dat.leavesExact_idle (dat V c) 4 t (idleOut t h1) (noFlushOut t h1)]
      rw [accAt_mid V c t h0 h1 hc0 hc1]
      unfold accMid; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hc0 hc1 (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with (its scoped buffers at anything, the generator register) is the invariant before
    the first point. -/
theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives that back: the accumulator's named contents are forgotten. -/
theorem Phi_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨⟨HS, Hoth⟩, Hg⟩
  isplitl [HS Hoth]
  · isplitl [HS]; · iexists _; iexact HS
    iexact Hoth
  iexact Hg

end Cert.Kernel.MM

end
-- ==== Proof.BitsKlRuns.lean ====
/-
  The divergence kernel's region (the second of the program's two): its schedule and its body, case by case.

  The grid has 8 × 4 points, point t = 4·o + i. The body keeps a 1×1 accumulator (a scratch buffer it keeps between
  points) and
    * at the very first point (o = 0 and i = 0) first stores zero into the accumulator,
    * then at every point loads the means', the raw scales' and the noise's blocks and adds to the accumulator the sum
      over the block of the pointwise divergence term,
    * and at the very last point (o = 7 and i = 3) stores the accumulator, divided by the element count, into the output
      window's 1×1 buffer, which the pipeline writes back there.
  So a point is in one of three cases: the first (reset, no write-back), the last (write-back, no reset), any other
  (neither). Here: the two branch conditions in closed form over the grid, where the output window is idle, and the body
  run once per case on arbitrary whole buffers — the pieces each run leaves in the accumulator (and, at the last point,
  in the output buffer) are found by running it.
-/
import proofs.«161406_j5574867550300_1_alg».proof.Proof.Gen.Kernel.Launch
import proofs.«161406_j5574867550300_1_alg».proof.Proof.Gen.Kernel.Skeleton
import proofs.«161406_j5574867550300_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KL

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The reset branch is taken: both coordinates are 0. -/
abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem condFirst_iff : ∀ t : Fin cfg1.N, condFirst (grid1.coords t) ↔ t.val = 0 :=
  (by decide +kernel : ∀ t : Fin grid1.N, condFirst (grid1.coords t) ↔ t.val = 0)

/-- The write-back branch is taken: the coordinates are 7 and 3. -/
abbrev condLast (i : grid1.Coords) : Prop := k1_cond2 i = 1#1
theorem condLast_iff : ∀ t : Fin cfg1.N, condLast (grid1.coords t) ↔ t.val = 31 :=
  (by decide +kernel : ∀ t : Fin grid1.N, condLast (grid1.coords t) ↔ t.val = 31)

/-! ## Where the output window is idle -/

/-- Away from the last point the output window is idle and is not written back. -/
theorem idleOut : ∀ t : Fin cfg1.N, ¬ t.val = 31 → cfg1.idle 3 (grid1.coords t) = true :=
  (by decide +kernel : ∀ t : Fin grid1.N, ¬ t.val = 31 → cfg1.idle 3 (grid1.coords t) = true)
theorem noFlushOut (t : Fin cfg1.N) (h : ¬ t.val = 31) : (cfg1.win 3).flush t = false := by
  cases hf : (cfg1.win 3).flush t
  · rfl
  · have h31 := (flush1_3 t).mp hf
    have hlt : t.val < 32 := t.isLt
    exact absurd (by omega) h
/-- At the last point it is live. -/
theorem liveOut : ∀ t : Fin cfg1.N, t.val = 31 → cfg1.idle 3 (grid1.coords t) = false :=
  (by decide +kernel : ∀ t : Fin grid1.N, t.val = 31 → cfg1.idle 3 (grid1.coords t) = false)

/-! ## The buffers the body is called on -/

abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev accM : Memref sig .tc .vmem S1x1 .f32 := Memref.whole cc1_scratch0
/-- The views through which the accumulator's and the output buffer's contents are stated. -/
abbrev accV : View sig .tc .vmem S1x1 .f32 := accM.view
abbrev outV : View sig .tc .vmem S1x1 .f32 := (Memref.whole cc1_stg3_0 : Memref sig .tc .vmem S1x1 .f32).view

/-! ## The body, case by case -/

set_option maxHeartbeats 4000000 in
/-- The first point: the accumulator at anything (it is reset before it is used); otherwise as `runMid`. -/
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 x1 x2 : Vec F S512x1024 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc1__kl_kernel i arg2 harg2 arg3 harg3 arg4 harg4 arg5 harg5 arg6 harg6) K } := by
  refine ⟨?_, fun xi E K => ?run⟩
  case run =>
    simp only [cc1__kl_kernel_eq_skeleton]; unfold cc1__kl_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- Neither the first nor the last point: the three input buffers at their contents, the idle output buffer handed back
    untouched, the accumulator at what the point before left: the body runs and leaves the accumulator with the found
    pieces written. -/
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 x1 x2 : Vec F S512x1024 .f32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc1__kl_kernel i arg2 harg2 arg3 harg3 arg4 harg4 arg5 harg5 arg6 harg6) K } := by
  refine ⟨?_, fun xi E K => ?run⟩
  case run =>
    simp only [cc1__kl_kernel_eq_skeleton]; unfold cc1__kl_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- The last point: the output buffer at anything (it is stored whole); the accumulator at what the point before left.
    The body leaves the found pieces in the output buffer and in the accumulator. -/
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__kl_kernel i arg2 harg2 arg3 harg3 arg4 harg4 arg5 harg5 arg6 harg6) K } := by
  refine ⟨?_, ?_, fun E K => ?run⟩
  case run =>
    simp only [cc1__kl_kernel_eq_skeleton]; unfold cc1__kl_kernel_skel
    rw [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## The pieces cover their buffers -/

theorem coverFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 x1 x2 : Vec F S512x1024 .f32) (y : S1x1.Idx) :
    ∃ pc ∈ (runFirst c i arg2 harg2 arg3 harg3 arg4 harg4 arg5 harg5 arg6 harg6 hc0 hc1 x0 x1 x2).1, y ∈ pc.1.set :=
  View.cover_of_tiledL _ S1x1.size (by sl_kernel_rfl) y

theorem coverMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 x1 x2 : Vec F S512x1024 .f32) (xs : Vec F S1x1 .f32) (y : S1x1.Idx) :
    ∃ pc ∈ (runMid c i arg2 harg2 arg3 harg3 arg4 harg4 arg5 harg5 arg6 harg6 hc0 hc1 x0 x1 x2 xs).1, y ∈ pc.1.set :=
  View.cover_of_tiledL _ S1x1.size (by sl_kernel_rfl) y

theorem coverLastAcc (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) (y : S1x1.Idx) :
    ∃ pc ∈ (runLast c i arg2 harg2 arg3 harg3 arg4 harg4 arg5 harg5 arg6 harg6 hc0 hc1 x0 x1 x2 xs).2.1, y ∈ pc.1.set :=
  View.cover_of_tiledL _ S1x1.size (by sl_kernel_rfl) y

theorem coverLastOut (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) (y : S1x1.Idx) :
    ∃ pc ∈ (runLast c i arg2 harg2 arg3 harg3 arg4 harg4 arg5 harg5 arg6 harg6 hc0 hc1 x0 x1 x2 xs).1, y ∈ pc.1.set :=
  View.cover_of_tiledL _ S1x1.size (by sl_kernel_rfl) y

/-! ## What each case leaves, read back -/

/-- The accumulator after the first point. -/
def accFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 x1 x2 : Vec F S512x1024 .f32) : Vec F S1x1 .f32 :=
  accV.read (Elt F) (accV.writes (Elt F) accV.junk (runFirst c i arg2 harg2 arg3 harg3 arg4 harg4 arg5 harg5 arg6 harg6 hc0 hc1 x0 x1 x2).1)
/-- The accumulator after a point that is neither the first nor the last. -/
def accMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 x1 x2 : Vec F S512x1024 .f32) (xs : Vec F S1x1 .f32) : Vec F S1x1 .f32 :=
  accV.read (Elt F) (accV.writes (Elt F) accV.junk (runMid c i arg2 harg2 arg3 harg3 arg4 harg4 arg5 harg5 arg6 harg6 hc0 hc1 x0 x1 x2 xs).1)
/-- The accumulator after the last point. -/
def accLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) : Vec F S1x1 .f32 :=
  accV.read (Elt F) (accV.writes (Elt F) accV.junk (runLast c i arg2 harg2 arg3 harg3 arg4 harg4 arg5 harg5 arg6 harg6 hc0 hc1 x0 x1 x2 xs).2.1)
/-- The output buffer after the last point. -/
def outLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) : Vec F S1x1 .f32 :=
  outV.read (Elt F) (outV.writes (Elt F) outV.junk (runLast c i arg2 harg2 arg3 harg3 arg4 harg4 arg5 harg5 arg6 harg6 hc0 hc1 x0 x1 x2 xs).1)

end Cert.Kernel.KL

end
-- ==== Proof.BitsKlFrame.lean ====
/-
  The divergence kernel's region: what its accumulator holds after each grid point, the region's invariant, its proof
  data at ANY contents `V` of the core's buffers when the region is entered, and the body obligation at every point.

  The accumulator after point n is defined by recursion on n: at point 0 what the first case leaves from the point's
  three input blocks (the accumulator is reset there); at any later point what the accumulating case (at the last point:
  the write-back case) leaves from the blocks and from the accumulator after point n - 1. The output window's buffer
  after the last point is what that case stores into it; at the other points the window is idle and its buffer is handed
  back as found.
  The invariant before the first point is the region's scoped buffers at anything; before any later point it is the
  accumulator at the value after the point before, the other region's scoped buffers at anything, and the generator
  register at some state.
-/
import proofs.«161406_j5574867550300_1_alg».proof.Proof.Gen.Kernel.Launch
import proofs.«161406_j5574867550300_1_alg».proof.Proof.Gen.Kernel.Skeleton
import proofs.«161406_j5574867550300_1_alg».proof.Proof.Gen.Kernel.Points
import proofs.«161406_j5574867550300_1_alg».proof.Proof.BitsKlRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KL

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The input windows are never idle. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel

/-! ## The accumulator after each point -/

/-- What the accumulator holds after the body at position `n`. -/
def accAt (c : Dev nD) : (n : ℕ) → n < cfg1.N → Vec F S1x1 .f32
  | 0, hn => accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((condFirst_iff ⟨0, hn⟩).mpr rfl)
      (fun h => absurd ((condLast_iff ⟨0, hn⟩).mp h) (by (try dsimp only); omega)) (iblk V c 0 ⟨0, hn⟩) (iblk V c 1 ⟨0, hn⟩) (iblk V c 2 ⟨0, hn⟩)
  | n + 1, hn =>
    if h1 : n + 1 = 31 then
      accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => absurd ((condFirst_iff ⟨n + 1, hn⟩).mp h) (by (try dsimp only); omega)) ((condLast_iff ⟨n + 1, hn⟩).mpr h1)
        (iblk V c 0 ⟨n + 1, hn⟩) (iblk V c 1 ⟨n + 1, hn⟩) (iblk V c 2 ⟨n + 1, hn⟩) (accAt c n (Nat.lt_of_succ_lt hn))
    else
      accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => absurd ((condFirst_iff ⟨n + 1, hn⟩).mp h) (by (try dsimp only); omega)) (fun h => h1 ((condLast_iff ⟨n + 1, hn⟩).mp h))
        (iblk V c 0 ⟨n + 1, hn⟩) (iblk V c 1 ⟨n + 1, hn⟩) (iblk V c 2 ⟨n + 1, hn⟩) (accAt c n (Nat.lt_of_succ_lt hn))

/-- At the first point: the reset case's contents. -/
theorem accAt_first (c : Dev nD) (t : Fin cfg1.N) (h0 : t.val = 0)
    (hc0 : condFirst (grid1.coords t)) (hc1 : ¬condLast (grid1.coords t)) :
    accAt V c t.val t.isLt = accFirst c (grid1.coords t) (ms0 t) (hs0 t) (ms1 t) (hs1 t) (ms2 t) (hs2 t) (ms3 t) (hs3 t) accM (Memref.isWhole_whole _) hc0 hc1 (iblk V c 0 t) (iblk V c 1 t) (iblk V c 2 t) := by
  obtain ⟨n, hn⟩ := t
  cases n with
  | zero => rfl
  | succ n => exact absurd h0 (Nat.succ_ne_zero n)

/-- At a point that is neither the first nor the last: the accumulating case's contents over what the point before left. -/
theorem accAt_mid (c : Dev nD) (t : Fin cfg1.N) (h0 : ¬t.val = 0) (h1 : ¬t.val = 31)
    (hc0 : ¬condFirst (grid1.coords t)) (hc1 : ¬condLast (grid1.coords t)) :
    accAt V c t.val t.isLt = accMid c (grid1.coords t) (ms0 t) (hs0 t) (ms1 t) (hs1 t) (ms2 t) (hs2 t) (ms3 t) (hs3 t) accM (Memref.isWhole_whole _) hc0 hc1 (iblk V c 0 t) (iblk V c 1 t) (iblk V c 2 t)
      (accAt V c (t.val - 1) (Nat.lt_of_le_of_lt (Nat.sub_le _ _) t.isLt)) := by
  obtain ⟨n, hn⟩ := t
  cases n with
  | zero => exact absurd rfl h0
  | succ n => exact (dif_neg h1).trans rfl

/-- At the last point: the write-back case's contents over what the point before left. -/
theorem accAt_last (c : Dev nD) (t : Fin cfg1.N) (h0 : ¬t.val = 0) (h1 : t.val = 31)
    (hc0 : ¬condFirst (grid1.coords t)) (hc1 : condLast (grid1.coords t)) :
    accAt V c t.val t.isLt = accLast c (grid1.coords t) (ms0 t) (hs0 t) (ms1 t) (hs1 t) (ms2 t) (hs2 t) (ms3 t) (hs3 t) accM (Memref.isWhole_whole _) hc0 hc1 (iblk V c 0 t) (iblk V c 1 t) (iblk V c 2 t)
      (accAt V c (t.val - 1) (Nat.lt_of_le_of_lt (Nat.sub_le _ _) t.isLt)) := by
  obtain ⟨n, hn⟩ := t
  cases n with
  | zero => exact absurd rfl h0
  | succ n => exact (dif_pos h1).trans rfl

/-- What the output window's buffer holds after the body at point `t`: at the last point what that case stores, from the
    blocks and the accumulator after the point before; elsewhere a value nothing reads (the window is idle). -/
def outAt (c : Dev nD) (t : Fin cfg1.N) : Vec F S1x1 .f32 :=
  if h1 : t.val = 31 then
    outLast c (grid1.coords t) (ms0 t) (hs0 t) (ms1 t) (hs1 t) (ms2 t) (hs2 t) (ms3 t) (hs3 t) accM (Memref.isWhole_whole _) (fun h => by have := (condFirst_iff t).mp h; omega) ((condLast_iff t).mpr h1)
      (iblk V c 0 t) (iblk V c 1 t) (iblk V c 2 t) (accAt V c (t.val - 1) (Nat.lt_of_le_of_lt (Nat.sub_le _ _) t.isLt))
  else outV.read (Elt F) outV.junk

theorem outAt_last (c : Dev nD) (t : Fin cfg1.N) (h1 : t.val = 31)
    (hc0 : ¬condFirst (grid1.coords t)) (hc1 : condLast (grid1.coords t)) :
    outAt V c t = outLast c (grid1.coords t) (ms0 t) (hs0 t) (ms1 t) (hs1 t) (ms2 t) (hs2 t) (ms3 t) (hs3 t) accM (Memref.isWhole_whole _) hc0 hc1 (iblk V c 0 t) (iblk V c 1 t) (iblk V c 2 t)
      (accAt V c (t.val - 1) (Nat.lt_of_le_of_lt (Nat.sub_le _ _) t.isLt)) := by
  unfold outAt; exact (dif_pos h1).trans rfl

/-! ## The region's invariant -/

/-- The region's scoped rest: the other region's eleven scoped buffers, each whole at some contents (this region leaves
    them alone), and the accumulator as a buffer owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) accM fullShare d)) ∗ (∃ r, prngReg c r)) := by
  unfold Pipeline.ΦA; rw [scopedRest1_eq]; simp only [accM, owns_whole]; try rfl

/-- The invariant before position `n`. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) accM fullShare (accAt V c n hn)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) accM fullShare (accAt V c (n - 1) (by omega))) ∗ (∃ r, prngReg c r)) := by
  cases n with
  | zero => exact absurd rfl hz
  | succ n => rfl

/-! ## The proof data -/

/-- The region's proof data on core `c`: the arrays as the region finds them; after the body at point `t` each input's
    buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]
theorem before0 (c : Dev nD) (t : Fin cfg1.N) (d) : (dat V c).before 0 t d = iblk V c 0 t := before_of_0 V (dat V c) (A_eq V c 0) (after0 V c) t d
theorem before1 (c : Dev nD) (t : Fin cfg1.N) (d) : (dat V c).before 1 t d = iblk V c 1 t := before_of_1 V (dat V c) (A_eq V c 1) (after1 V c) t d
theorem before2 (c : Dev nD) (t : Fin cfg1.N) (d) : (dat V c).before 2 t d = iblk V c 2 t := before_of_2 V (dat V c) (A_eq V c 2) (after2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t)

set_option maxHeartbeats 4800000 in
/-- The body at any point. The inputs' buffers hold their blocks; the point's position says which case it is in; the
    invariant hands the body the accumulator (at anything at the first point, else at what the point before left) and
    takes it back at this point's contents; the idle output buffer goes through untouched, and at the last point it is
    left at what the case stores. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val = 0
  · have h1 : ¬ t.val = 31 := by omega
    have hc0 : condFirst (grid1.coords t) := (condFirst_iff t).mpr h0
    have hc1 : ¬condLast (grid1.coords t) := fun h => h1 ((condLast_iff t).mp h)
    rw [Dat.leavesExact_idle (dat V c) 3 t (idleOut t h1) (noFlushOut t h1)]
    rw [accAt_first V c t h0 hc0 hc1]
    unfold accFirst; (try dsimp only)
    rw [Phi_castSucc V c t, PhiS_zero V c _ _ h0, PhiA_eq]
    iintro ⟨⟨⟨Hb1, Hb2, Hb3, Hb4, Hb5, Hb6, Hb7, Hb8, Hb9, Hb10, Hb11, HS⟩, Hg⟩, Ho, ⟨%d0, H0⟩, ⟨%d1, H1⟩, ⟨%d2, H2⟩, ⟨%d3, H3⟩⟩
    iapply ((runFirst c (grid1.coords t) _ _ _ _ _ _ _ _ _ _ hc0 hc1 (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hb1 Hb2 Hb3 Hb4 Hb5 Hb6 Hb7 Hb8 Hb9 Hb10 Hb11 Hg]
    · isplitl [HS Hb1 Hb2 Hb3 Hb4 Hb5 Hb6 Hb7 Hb8 Hb9 Hb10 Hb11]
      · isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        isplitl [Hb10]; · iexact Hb10
        isplitl [Hb11]; · iexact Hb11
        unfold owns; iexists _; isplitr
        swap; · iexact HS
        ipureintro; exact View.read_writes_of_cover _ _ _ _ _ (coverFirst c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := h0
    have hc0 : ¬condFirst (grid1.coords t) := fun h => h0 ((condFirst_iff t).mp h)
    by_cases h1 : t.val = 31
    · have hc1 : condLast (grid1.coords t) := (condLast_iff t).mpr h1
      rw [show (dat V c).leavesExact 3 t = owns (c : Thread nD τ) (ms3 t) fullShare ((dat V c).after 3 t) from by
        unfold Dat.leavesExact; rw [liveOut t h1], after3]
      rw [accAt_last V c t h0 h1 hc0 hc1, outAt_last V c t h1 hc0 hc1]
      unfold accLast outLast; (try dsimp only)
      rw [Phi_castSucc V c t, PhiS_pos V c _ _ hz]
      iintro ⟨⟨⟨Hb1, Hb2, Hb3, Hb4, Hb5, Hb6, Hb7, Hb8, Hb9, Hb10, Hb11, HS⟩, Hg⟩, Ho, ⟨%d0, H0⟩, ⟨%d1, H1⟩, ⟨%d2, H2⟩, ⟨%d3, H3⟩⟩
      iapply ((runLast c (grid1.coords t) _ _ _ _ _ _ _ _ _ _ hc0 hc1 (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hb1 Hb2 Hb3 Hb4 Hb5 Hb6 Hb7 Hb8 Hb9 Hb10 Hb11 Hg]
      · isplitl [HS Hb1 Hb2 Hb3 Hb4 Hb5 Hb6 Hb7 Hb8 Hb9 Hb10 Hb11]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          unfold owns; iexists _; isplitr
          swap; · iexact HS
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · have hc1 : ¬condLast (grid1.coords t) := fun h => h1 ((condLast_iff t).mp h)
      rw [Dat.leavesExact_idle (dat V c) 3 t (idleOut t h1) (noFlushOut t h1)]
      rw [accAt_mid V c t h0 h1 hc0 hc1]
      unfold accMid; (try dsimp only)
      rw [Phi_castSucc V c t, PhiS_pos V c _ _ hz]
      iintro ⟨⟨⟨Hb1, Hb2, Hb3, Hb4, Hb5, Hb6, Hb7, Hb8, Hb9, Hb10, Hb11, HS⟩, Hg⟩, Ho, ⟨%d0, H0⟩, ⟨%d1, H1⟩, ⟨%d2, H2⟩, ⟨%d3, H3⟩⟩
      iapply ((runMid c (grid1.coords t) _ _ _ _ _ _ _ _ _ _ hc0 hc1 (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb1 Hb2 Hb3 Hb4 Hb5 Hb6 Hb7 Hb8 Hb9 Hb10 Hb11 Hg]
      · isplitl [HS Hb1 Hb2 Hb3 Hb4 Hb5 Hb6 Hb7 Hb8 Hb9 Hb10 Hb11]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          unfold owns; iexists _; isplitr
          swap; · iexact HS
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with (its scoped buffers at anything, the generator register) is the invariant before
    the first point. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives that back: the accumulator's named contents are forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  iintro ⟨⟨Hb1, Hb2, Hb3, Hb4, Hb5, Hb6, Hb7, Hb8, Hb9, Hb10, Hb11, HS⟩, Hg⟩
  isplitl [HS Hb1 Hb2 Hb3 Hb4 Hb5 Hb6 Hb7 Hb8 Hb9 Hb10 Hb11]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    iexists _; iexact HS
  iexact Hg

end Cert.Kernel.KL

end
-- ==== Proof.BitsRun.lean ====
/-
  The whole program as a run: the two kernel regions and the closing reshape, from the launch to the return.

  Between two items of the program a core holds every unscoped buffer at known contents: at launch the memory's; after a
  region, that region's arrays at what its pipeline leaves (the input arrays as entered, the output array at its
  write-backs folded) and every other buffer as entered; after the reshape, its result written. The run says: every
  weakly fair execution terminates without a fault, and the final memory holds each unscoped buffer at the last of these
  contents. The frame claim (the arguments end as launched) and the results' values are both read off that.
-/
import proofs.«161406_j5574867550300_1_alg».proof.Proof.Gen.Kernel.Launch
import proofs.«161406_j5574867550300_1_alg».proof.Proof.Gen.Kernel.Skeleton
import proofs.«161406_j5574867550300_1_alg».proof.Proof.Gen.Kernel.Points
import proofs.«161406_j5574867550300_1_alg».proof.Proof.BitsMatmulFrame
import proofs.«161406_j5574867550300_1_alg».proof.Proof.BitsKlFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the linear layer's region. -/
def W1 (c : Dev nD) : Valuation τ sig (Elt F) :=
  Pipeline.withArrays spec0 c (W0 m c) fun w => (MM.dat (V0 m) c).arrAt w cfg0.N
theorem W1_arr (c : Dev nD) (w : Fin cfg0.W) :
    W1 m c (Proc.devRef .tc (Pipeline.arrRef spec0 w)) = (MM.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (MM.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the divergence region. -/
def W2 (c : Dev nD) : Valuation τ sig (Elt F) :=
  Pipeline.withArrays spec1 c (W1 m c) fun w => (KL.dat (V1 m) c).arrAt w cfg1.N
theorem W2_arr (c : Dev nD) (w : Fin cfg1.W) :
    W2 m c (Proc.devRef .tc (Pipeline.arrRef spec1 w)) = (KL.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (KL.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the closing reshape. -/
abbrev W3 : Dev nD → Valuation τ sig (Elt F) := fun c => StableHlo.after hostOps2 (W2 m c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => MM.dat (V0 m) c
  | ⟨1, _⟩ => fun c => KL.dat (V1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- The closing reshape allocates nothing. -/
theorem hostOps2_fresh : (hostOps2 : List (HloOp τ sig (Elt F))).Forall fun op => op.fresh = ∅ := by
  simp only [List.Forall]; repeat' constructor

/-- The closing reshape as a segment, from the contents after the second region. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W0`, left at `W1`. Its arrays are split out of
    the unscoped buffers and put back at what the pipeline leaves; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (MM.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from MM.Phi_in (V0 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from MM.Phi_out (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split out of
    the unscoped buffers and put back at what the pipeline leaves; the generator register goes into the region's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (KL.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from KL.Phi_in (V1 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from KL.Phi_out (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m), .host (hseg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and the
    final memory holds every unscoped buffer at the contents after the closing reshape. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## Reading the last contents back -/

/-- The activations: the reshape does not write them, the second region does not stage them, the first region only reads them. -/
theorem W3_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
      simp only [hostOps2, List.Forall, StableHlo.reshape_writes, Finset.mem_singleton]
      exact StableHlo.devRef_ne_of_ne (by decide)))
    _ = W1 m c (Proc.devRef .tc main_arg0) := W2_of_ne m c main_arg0 (by decide)
    _ = W0 m c (Proc.devRef .tc main_arg0) := (W1_arr m c 0).trans (((MM.dat (V0 m) c).arrAt_in 0 rfl _).trans (MM.A_eq (V0 m) c 0))
    _ = m ((c : Thread nD τ).loc main_arg0) := rfl

/-- After the first region each weight array is as launched. -/
theorem W1_arg1 (c : Dev nD) : W1 m c (Proc.devRef .tc main_arg1) = m ((c : Thread nD τ).loc main_arg1) :=
  (W1_arr m c 1).trans (((MM.dat (V0 m) c).arrAt_in 1 rfl _).trans (MM.A_eq (V0 m) c 1))
theorem W1_arg2 (c : Dev nD) : W1 m c (Proc.devRef .tc main_arg2) = m ((c : Thread nD τ).loc main_arg2) :=
  (W1_arr m c 2).trans (((MM.dat (V0 m) c).arrAt_in 2 rfl _).trans (MM.A_eq (V0 m) c 2))
theorem W1_arg3 (c : Dev nD) : W1 m c (Proc.devRef .tc main_arg3) = m ((c : Thread nD τ).loc main_arg3) :=
  (W1_arr m c 3).trans (((MM.dat (V0 m) c).arrAt_in 3 rfl _).trans (MM.A_eq (V0 m) c 3))

/-- The weight arrays: the reshape does not write them, both regions only read them. -/
theorem W3_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
      simp only [hostOps2, List.Forall, StableHlo.reshape_writes, Finset.mem_singleton]
      exact StableHlo.devRef_ne_of_ne (by decide)))
    _ = W1 m c (Proc.devRef .tc main_arg1) := (W2_arr m c 0).trans (((KL.dat (V1 m) c).arrAt_in 0 rfl _).trans (KL.A_eq (V1 m) c 0))
    _ = m ((c : Thread nD τ).loc main_arg1) := W1_arg1 m c
theorem W3_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
      simp only [hostOps2, List.Forall, StableHlo.reshape_writes, Finset.mem_singleton]
      exact StableHlo.devRef_ne_of_ne (by decide)))
    _ = W1 m c (Proc.devRef .tc main_arg2) := (W2_arr m c 1).trans (((KL.dat (V1 m) c).arrAt_in 1 rfl _).trans (KL.A_eq (V1 m) c 1))
    _ = m ((c : Thread nD τ).loc main_arg2) := W1_arg2 m c
theorem W3_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
      simp only [hostOps2, List.Forall, StableHlo.reshape_writes, Finset.mem_singleton]
      exact StableHlo.devRef_ne_of_ne (by decide)))
    _ = W1 m c (Proc.devRef .tc main_arg3) := (W2_arr m c 2).trans (((KL.dat (V1 m) c).arrAt_in 2 rfl _).trans (KL.A_eq (V1 m) c 2))
    _ = m ((c : Thread nD τ).loc main_arg3) := W1_arg3 m c

/-- The linear layer's result: neither the reshape nor the second region touches it; it is what the first region's
    pipeline leaves in its output array. -/
theorem W3_v0 (c : Dev nD) : W3 m c (Proc.devRef .tc main_v0) = (MM.dat (V0 m) c).arrAt 4 cfg0.N :=
  calc W3 m c (Proc.devRef .tc main_v0)
    _ = W2 m c (Proc.devRef .tc main_v0) := StableHlo.after_of_forall_not_mem (b := Proc.devRef .tc main_v0) _ _ (List.forall_iff_forall_mem.mp (by
      simp only [hostOps2, List.Forall, StableHlo.reshape_writes, Finset.mem_singleton]
      exact StableHlo.devRef_ne_of_ne (by decide)))
    _ = W1 m c (Proc.devRef .tc main_v0) := W2_of_ne m c main_v0 (by decide)
    _ = (MM.dat (V0 m) c).arrAt 4 cfg0.N := W1_arr m c 4

/-- The frame claim's post at any float instance: the run terminates without a fault and the four arguments end as launched. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c)⟩) (run_all m ρ)

end Cert.Kernel.Run

end
-- ==== Proof.MatmulRuns.lean ====
/-
  The linear layer's kernel region (the first of the program's two): its schedule and its body, case by case.

  The grid has 8 × 4 points, point t = 4·o + i for output column block o and reduction block i. The body
    * where i = 0 first stores zeros into its 512×512 accumulator (a scratch buffer it keeps between points),
    * then at every point adds to the accumulator the product of the activations' block with the sampled weights' block,
    * and where i = 3 copies the accumulator into the output window's buffer, which the pipeline writes back there.
  So a point is in one of three cases: i = 0 (reset, no write-back), 0 < i < 3 (neither), i = 3 (write-back). Here: the
  two branch conditions in closed form over the grid, where the output window is idle, and the body run once per case on
  arbitrary whole buffers — the pieces each run leaves in the accumulator (and, at i = 3, in the output buffer) are found
  by running it.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The reset branch is taken: the reduction coordinate is 0. -/
abbrev condReset (i : grid0.Coords) : Prop :=
  (Scalar.cmpi .ne (Scalar.extui (Scalar.cmpi .eq (BitVec.ofNat 32 (i 1).val) 0#32)) 0#32) = 1#1
theorem condReset_iff : ∀ t : Fin cfg0.N, condReset (grid0.coords t) ↔ t.val % 4 = 0 :=
  (by decide +kernel : ∀ t : Fin grid0.N, condReset (grid0.coords t) ↔ t.val % 4 = 0)

/-- The write-back branch is taken: the reduction coordinate is 3. -/
abbrev condFlush (i : grid0.Coords) : Prop := k0_cond2 i = 1#1
theorem condFlush_iff : ∀ t : Fin cfg0.N, condFlush (grid0.coords t) ↔ t.val % 4 = 3 :=
  (by decide +kernel : ∀ t : Fin grid0.N, condFlush (grid0.coords t) ↔ t.val % 4 = 3)

/-! ## Where the output window is idle -/

/-- Away from the last reduction step the output window is idle and is not written back. -/
theorem idleOut : ∀ t : Fin cfg0.N, ¬ t.val % 4 = 3 → cfg0.idle 4 (grid0.coords t) = true :=
  (by decide +kernel : ∀ t : Fin grid0.N, ¬ t.val % 4 = 3 → cfg0.idle 4 (grid0.coords t) = true)
theorem noFlushOut (t : Fin cfg0.N) (h : ¬ t.val % 4 = 3) : (cfg0.win 4).flush t = false := by
  cases hf : (cfg0.win 4).flush t
  · rfl
  · exact absurd ((flush0_4 t).mp hf) h
/-- At the last reduction step it is live. -/
theorem liveOut : ∀ t : Fin cfg0.N, t.val % 4 = 3 → cfg0.idle 4 (grid0.coords t) = false :=
  (by decide +kernel : ∀ t : Fin grid0.N, t.val % 4 = 3 → cfg0.idle 4 (grid0.coords t) = false)

/-! ## The buffers the body is called on -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev accM : Memref sig .tc .vmem S512x512 .f32 := Memref.whole cc0_scratch0
/-- The views through which the accumulator's and the output buffer's contents are stated. -/
abbrev accV : View sig .tc .vmem S512x512 .f32 := accM.view
abbrev outV : View sig .tc .vmem S512x512 .f32 := (Memref.whole cc0_stg4_0 : Memref sig .tc .vmem S512x512 .f32).view

/-! ## The body, case by case -/

set_option maxHeartbeats 4000000 in
/-- 0 < i < 3: the four input buffers at their contents, the idle output buffer handed back untouched, the accumulator at
    what the point before left: the body runs and leaves the accumulator with the found pieces written. -/
noncomputable def runMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : ¬condFlush i)
    (x0 x1 x2 x3 : Vec F S512x1024 .f32) (xs : Vec F S512x512 .f32) :
    { LS : List (View.Piece (Elt F) S512x512 .f32) //
      ∀ (xi : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg2 harg2 arg3 harg3 arg4 harg4 arg5 harg5 arg6 harg6 arg7 harg7) K } := by
  refine ⟨?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- i = 0: the accumulator at anything (it is reset before it is read); otherwise as `runMid`. -/
noncomputable def runReset (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : condReset i) (hc1 : ¬condFlush i)
    (x0 x1 x2 x3 : Vec F S512x1024 .f32) :
    { LS : List (View.Piece (Elt F) S512x512 .f32) //
      ∀ (xi : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg2 harg2 arg3 harg3 arg4 harg4 arg5 harg5 arg6 harg6 arg7 harg7) K } := by
  refine ⟨?_, fun xi E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- i = 3: the output buffer at anything (it is stored whole); the accumulator at what the point before left. The body
    leaves the found pieces in the output buffer and in the accumulator. -/
noncomputable def runFlush (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) :
    Σ' (LO : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg2 harg2 arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

/-! ## The pieces cover their buffers -/

theorem coverMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : ¬condFlush i)
    (x0 x1 x2 x3 : Vec F S512x1024 .f32) (xs : Vec F S512x512 .f32) (y : S512x512.Idx) :
    ∃ pc ∈ (runMid c i arg2 harg2 arg3 harg3 arg4 harg4 arg5 harg5 arg6 harg6 arg7 harg7 hc0 hc1 x0 x1 x2 x3 xs).1, y ∈ pc.1.set :=
  View.cover_of_tiledL _ S512x512.size (by sl_kernel_rfl) y

theorem coverReset (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : condReset i) (hc1 : ¬condFlush i)
    (x0 x1 x2 x3 : Vec F S512x1024 .f32) (y : S512x512.Idx) :
    ∃ pc ∈ (runReset c i arg2 harg2 arg3 harg3 arg4 harg4 arg5 harg5 arg6 harg6 arg7 harg7 hc0 hc1 x0 x1 x2 x3).1, y ∈ pc.1.set :=
  View.cover_of_tiledL _ S512x512.size (by sl_kernel_rfl) y

theorem coverFlushAcc (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) (y : S512x512.Idx) :
    ∃ pc ∈ (runFlush c i arg2 harg2 arg3 harg3 arg4 harg4 arg5 harg5 arg6 harg6 arg7 harg7 hc0 hc1 x0 x1 x2 x3 xs).2.1, y ∈ pc.1.set :=
  View.cover_of_tiledL _ S512x512.size (by sl_kernel_rfl) y

theorem coverFlushOut (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) (y : S512x512.Idx) :
    ∃ pc ∈ (runFlush c i arg2 harg2 arg3 harg3 arg4 harg4 arg5 harg5 arg6 harg6 arg7 harg7 hc0 hc1 x0 x1 x2 x3 xs).1, y ∈ pc.1.set :=
  View.cover_of_tiledL _ S512x512.size (by sl_kernel_rfl) y

/-! ## What each case leaves, read back -/

/-- The accumulator after a point with 0 < i < 3. -/
def accMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : ¬condFlush i)
    (x0 x1 x2 x3 : Vec F S512x1024 .f32) (xs : Vec F S512x512 .f32) : Vec F S512x512 .f32 :=
  accV.read (Elt F) (accV.writes (Elt F) accV.junk (runMid c i arg2 harg2 arg3 harg3 arg4 harg4 arg5 harg5 arg6 harg6 arg7 harg7 hc0 hc1 x0 x1 x2 x3 xs).1)
/-- The accumulator after a point with i = 0. -/
def accReset (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : condReset i) (hc1 : ¬condFlush i)
    (x0 x1 x2 x3 : Vec F S512x1024 .f32) : Vec F S512x512 .f32 :=
  accV.read (Elt F) (accV.writes (Elt F) accV.junk (runReset c i arg2 harg2 arg3 harg3 arg4 harg4 arg5 harg5 arg6 harg6 arg7 harg7 hc0 hc1 x0 x1 x2 x3).1)
/-- The accumulator after a point with i = 3. -/
def accFlush (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) : Vec F S512x512 .f32 :=
  accV.read (Elt F) (accV.writes (Elt F) accV.junk (runFlush c i arg2 harg2 arg3 harg3 arg4 harg4 arg5 harg5 arg6 harg6 arg7 harg7 hc0 hc1 x0 x1 x2 x3 xs).2.1)
/-- The output buffer after a point with i = 3. -/
def outFlush (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) : Vec F S512x512 .f32 :=
  outV.read (Elt F) (outV.writes (Elt F) outV.junk (runFlush c i arg2 harg2 arg3 harg3 arg4 harg4 arg5 harg5 arg6 harg6 arg7 harg7 hc0 hc1 x0 x1 x2 x3 xs).1)

end Cert.KernelIdeal.MM

end
-- ==== Proof.MatmulFrame.lean ====
/-
  The linear layer's kernel region: what its accumulator holds after each grid point, the region's invariant, its
  proof data at ANY contents `V` of the core's buffers when the region is entered, and the body obligation at every point.

  The accumulator after point n is defined by recursion on n: at a point with reduction coordinate 0 what the reset case
  leaves from the point's four input blocks; at any other point what the accumulating case leaves from the blocks and
  from the accumulator after point n - 1. The output window's buffer after a point with reduction coordinate 3 is what
  that case stores into it; at the other points the window is idle and its buffer is handed back as found.
  The invariant before the first point is the region's scoped buffers at anything; before any later point it is the
  accumulator at the value after the point before, the other region's scoped buffers at anything, and the generator
  register at some state.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import proofs.«161406_j5574867550300_1_alg».proof.Proof.MatmulRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-! ## The accumulator after each point -/

/-- What the accumulator holds after the body at position `n`. -/
def accAt (c : Dev nD) : (n : ℕ) → n < cfg0.N → Vec F S512x512 .f32
  | 0, hn => accReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((condReset_iff ⟨0, hn⟩).mpr (Nat.zero_mod _))
      (fun h => absurd ((condFlush_iff ⟨0, hn⟩).mp h) (by (try dsimp only); omega)) (iblk V c 0 ⟨0, hn⟩) (iblk V c 1 ⟨0, hn⟩) (iblk V c 2 ⟨0, hn⟩) (iblk V c 3 ⟨0, hn⟩)
  | n + 1, hn =>
    if h0 : (n + 1) % 4 = 0 then
      accReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((condReset_iff ⟨n + 1, hn⟩).mpr h0)
        (fun h => absurd ((condFlush_iff ⟨n + 1, hn⟩).mp h) (by (try dsimp only); omega)) (iblk V c 0 ⟨n + 1, hn⟩) (iblk V c 1 ⟨n + 1, hn⟩) (iblk V c 2 ⟨n + 1, hn⟩) (iblk V c 3 ⟨n + 1, hn⟩)
    else if h1 : (n + 1) % 4 = 3 then
      accFlush c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((condReset_iff ⟨n + 1, hn⟩).mp h)) ((condFlush_iff ⟨n + 1, hn⟩).mpr h1)
        (iblk V c 0 ⟨n + 1, hn⟩) (iblk V c 1 ⟨n + 1, hn⟩) (iblk V c 2 ⟨n + 1, hn⟩) (iblk V c 3 ⟨n + 1, hn⟩) (accAt c n (Nat.lt_of_succ_lt hn))
    else
      accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((condReset_iff ⟨n + 1, hn⟩).mp h)) (fun h => h1 ((condFlush_iff ⟨n + 1, hn⟩).mp h))
        (iblk V c 0 ⟨n + 1, hn⟩) (iblk V c 1 ⟨n + 1, hn⟩) (iblk V c 2 ⟨n + 1, hn⟩) (iblk V c 3 ⟨n + 1, hn⟩) (accAt c n (Nat.lt_of_succ_lt hn))

/-- At a point with reduction coordinate 0: the reset case's contents. -/
theorem accAt_reset (c : Dev nD) (t : Fin cfg0.N) (h0 : t.val % 4 = 0)
    (hc0 : condReset (grid0.coords t)) (hc1 : ¬condFlush (grid0.coords t)) :
    accAt V c t.val t.isLt = accReset c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t) := by
  obtain ⟨n, hn⟩ := t
  cases n with
  | zero => rfl
  | succ n => exact (dif_pos h0).trans rfl

/-- At a point with reduction coordinate 1 or 2: the accumulating case's contents over what the point before left. -/
theorem accAt_mid (c : Dev nD) (t : Fin cfg0.N) (h0 : ¬t.val % 4 = 0) (h1 : ¬t.val % 4 = 3)
    (hc0 : ¬condReset (grid0.coords t)) (hc1 : ¬condFlush (grid0.coords t)) :
    accAt V c t.val t.isLt = accMid c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-- At a point with reduction coordinate 3: the write-back case's contents over what the point before left. -/
theorem accAt_flush (c : Dev nD) (t : Fin cfg0.N) (h0 : ¬t.val % 4 = 0) (h1 : t.val % 4 = 3)
    (hc0 : ¬condReset (grid0.coords t)) (hc1 : condFlush (grid0.coords t)) :
    accAt V c t.val t.isLt = accFlush c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body at point `t`: at reduction coordinate 3 what that case stores,
    from the blocks and the accumulator after the point before; elsewhere a value nothing reads (the window is idle). -/
def outAt (c : Dev nD) (t : Fin cfg0.N) : Vec F S512x512 .f32 :=
  if h1 : t.val % 4 = 3 then
    outFlush c (grid0.coords t) (ms0 t) (hs0 t) (ms1 t) (hs1 t) (ms2 t) (hs2 t) (ms3 t) (hs3 t) (ms4 t) (hs4 t) accM (Memref.isWhole_whole _) (fun h => by have := (condReset_iff t).mp h; omega) ((condFlush_iff t).mpr h1)
      (iblk V c 0 t) (iblk V c 1 t) (iblk V c 2 t) (iblk V c 3 t) (accAt V c (t.val - 1) (Nat.lt_of_le_of_lt (Nat.sub_le _ _) t.isLt))
  else outV.read (Elt F) outV.junk

theorem outAt_flush (c : Dev nD) (t : Fin cfg0.N) (h1 : t.val % 4 = 3)
    (hc0 : ¬condReset (grid0.coords t)) (hc1 : condFlush (grid0.coords t)) :
    outAt V c t = outFlush c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t)
      (accAt V c (t.val - 1) (Nat.lt_of_le_of_lt (Nat.sub_le _ _) t.isLt)) := by
  unfold outAt; exact (dif_pos h1).trans rfl

/-! ## The region's invariant -/

/-- The other region's scoped buffers, each whole at some contents: this region leaves them alone. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- The region's scoped rest with the accumulator as a buffer owned at some contents. -/
theorem PhiA_eq (c : Dev nD) :
    (Pipeline.ΦA spec0 c : sProp 𝕄)
      = iprop(iprop((∃ d, owns (c : Thread nD τ) accM fullShare d) ∗ others (F := F) c) ∗ (∃ r, prngReg c r)) := by
  unfold Pipeline.ΦA others; rw [scopedRest0_eq]; simp only [accM, owns_whole]; try rfl

/-- The invariant before position `n`. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others (F := F) c) ∗ (∃ r, prngReg c r)) := by
  cases n with
  | zero => exact absurd rfl hz
  | succ n => rfl

/-! ## The proof data -/

/-- The region's proof data on core `c`: the arrays as the region finds them; after the body at point `t` each input's
    buffer at its block and the output's at `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem Phi_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = outAt V c t := by dsimp only [dat]
theorem before0 (c : Dev nD) (t : Fin cfg0.N) (d) : (dat V c).before 0 t d = iblk V c 0 t := before_of_0 V (dat V c) (A_eq V c 0) (after0 V c) t d
theorem before1 (c : Dev nD) (t : Fin cfg0.N) (d) : (dat V c).before 1 t d = iblk V c 1 t := before_of_1 V (dat V c) (A_eq V c 1) (after1 V c) t d
theorem before2 (c : Dev nD) (t : Fin cfg0.N) (d) : (dat V c).before 2 t d = iblk V c 2 t := before_of_2 V (dat V c) (A_eq V c 2) (after2 V c) t d
theorem before3 (c : Dev nD) (t : Fin cfg0.N) (d) : (dat V c).before 3 t d = iblk V c 3 t := before_of_3 V (dat V c) (A_eq V c 3) (after3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 4800000 in
/-- The body at any point. The inputs' buffers hold their blocks; the reduction coordinate says which case the point is in;
    the invariant hands the body the accumulator (at anything at the very first point, else at what the point before left)
    and takes it back at this point's contents; the idle output buffer goes through untouched, and at reduction
    coordinate 3 it is left at what the case stores. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 4 = 0
  · have h1 : ¬ t.val % 4 = 3 := by omega
    have hc0 : condReset (grid0.coords t) := (condReset_iff t).mpr h0
    have hc1 : ¬condFlush (grid0.coords t) := fun h => h1 ((condFlush_iff t).mp h)
    rw [Dat.leavesExact_idle (dat V c) 4 t (idleOut t h1) (noFlushOut t h1)]
    rw [accAt_reset V c t h0 hc0 hc1]
    unfold accReset; (try dsimp only)
    by_cases hz : t.val = 0
    · rw [Phi_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ hc0 hc1 (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverReset c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runReset c (grid0.coords t) _ _ _ _ _ _ _ _ _ _ _ _ hc0 hc1 (iblk V c 0 t) (iblk V c 1 t) (iblk V c 2 t) (iblk V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverReset c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬condReset (grid0.coords t) := fun h => h0 ((condReset_iff t).mp h)
    by_cases h1 : t.val % 4 = 3
    · have hc1 : condFlush (grid0.coords t) := (condFlush_iff t).mpr h1
      rw [show (dat V c).leavesExact 4 t = owns (c : Thread nD τ) (ms4 t) fullShare ((dat V c).after 4 t) from by
        unfold Dat.leavesExact; rw [liveOut t h1], after4]
      rw [accAt_flush V c t h0 h1 hc0 hc1, outAt_flush V c t h1 hc0 hc1]
      unfold accFlush outFlush; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFlush c (grid0.coords t) _ _ _ _ _ _ _ _ _ _ _ _ hc0 hc1 (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverFlushAcc c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverFlushOut c _ _ _ _ _ _ _ _ _ _ _ _ _ _ _ _ _ _ _ _)
    · have hc1 : ¬condFlush (grid0.coords t) := fun h => h1 ((condFlush_iff t).mp h)
      rw [Dat.leavesExact_idle (dat V c) 4 t (idleOut t h1) (noFlushOut t h1)]
      rw [accAt_mid V c t h0 h1 hc0 hc1]
      unfold accMid; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hc0 hc1 (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with (its scoped buffers at anything, the generator register) is the invariant before
    the first point. -/
theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives that back: the accumulator's named contents are forgotten. -/
theorem Phi_out (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA_eq]
  iintro ⟨⟨HS, Hoth⟩, Hg⟩
  isplitl [HS Hoth]
  · isplitl [HS]; · iexists _; iexact HS
    iexact Hoth
  iexact Hg

end Cert.KernelIdeal.MM

end
-- ==== Proof.KlRuns.lean ====
/-
  The divergence kernel's region (the second of the program's two): its schedule and its body, case by case.

  The grid has 8 × 4 points, point t = 4·o + i. The body keeps a 1×1 accumulator (a scratch buffer it keeps between
  points) and
    * at the very first point (o = 0 and i = 0) first stores zero into the accumulator,
    * then at every point loads the means', the raw scales' and the noise's blocks and adds to the accumulator the sum
      over the block of the pointwise divergence term,
    * and at the very last point (o = 7 and i = 3) stores the accumulator, divided by the element count, into the output
      window's 1×1 buffer, which the pipeline writes back there.
  So a point is in one of three cases: the first (reset, no write-back), the last (write-back, no reset), any other
  (neither). Here: the two branch conditions in closed form over the grid, where the output window is idle, and the body
  run once per case on arbitrary whole buffers — the pieces each run leaves in the accumulator (and, at the last point,
  in the output buffer) are found by running it.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KL

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The reset branch is taken: both coordinates are 0. -/
abbrev condFirst (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem condFirst_iff : ∀ t : Fin cfg1.N, condFirst (grid1.coords t) ↔ t.val = 0 :=
  (by decide +kernel : ∀ t : Fin grid1.N, condFirst (grid1.coords t) ↔ t.val = 0)

/-- The write-back branch is taken: the coordinates are 7 and 3. -/
abbrev condLast (i : grid1.Coords) : Prop := k1_cond2 i = 1#1
theorem condLast_iff : ∀ t : Fin cfg1.N, condLast (grid1.coords t) ↔ t.val = 31 :=
  (by decide +kernel : ∀ t : Fin grid1.N, condLast (grid1.coords t) ↔ t.val = 31)

/-! ## Where the output window is idle -/

/-- Away from the last point the output window is idle and is not written back. -/
theorem idleOut : ∀ t : Fin cfg1.N, ¬ t.val = 31 → cfg1.idle 3 (grid1.coords t) = true :=
  (by decide +kernel : ∀ t : Fin grid1.N, ¬ t.val = 31 → cfg1.idle 3 (grid1.coords t) = true)
theorem noFlushOut (t : Fin cfg1.N) (h : ¬ t.val = 31) : (cfg1.win 3).flush t = false := by
  cases hf : (cfg1.win 3).flush t
  · rfl
  · have h31 := (flush1_3 t).mp hf
    have hlt : t.val < 32 := t.isLt
    exact absurd (by omega) h
/-- At the last point it is live. -/
theorem liveOut : ∀ t : Fin cfg1.N, t.val = 31 → cfg1.idle 3 (grid1.coords t) = false :=
  (by decide +kernel : ∀ t : Fin grid1.N, t.val = 31 → cfg1.idle 3 (grid1.coords t) = false)

/-! ## The buffers the body is called on -/

abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev accM : Memref sig .tc .vmem S1x1 .f32 := Memref.whole cc1_scratch0
/-- The views through which the accumulator's and the output buffer's contents are stated. -/
abbrev accV : View sig .tc .vmem S1x1 .f32 := accM.view
abbrev outV : View sig .tc .vmem S1x1 .f32 := (Memref.whole cc1_stg3_0 : Memref sig .tc .vmem S1x1 .f32).view

/-! ## The body, case by case -/

set_option maxHeartbeats 4000000 in
/-- The first point: the accumulator at anything (it is reset before it is used); otherwise as `runMid`. -/
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 x1 x2 : Vec F S512x1024 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc1__kl_kernel i arg2 harg2 arg3 harg3 arg4 harg4 arg5 harg5 arg6 harg6) K } := by
  refine ⟨?_, fun xi E K => ?run⟩
  case run =>
    simp only [cc1__kl_kernel_eq_skeleton]; unfold cc1__kl_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- Neither the first nor the last point: the three input buffers at their contents, the idle output buffer handed back
    untouched, the accumulator at what the point before left: the body runs and leaves the accumulator with the found
    pieces written. -/
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 x1 x2 : Vec F S512x1024 .f32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ (∃ f, arg6.view.loc (c : Thread nD τ) ↦[arg6.view.set]{fullShare} arg6.view.writes (Elt F) f LS)) -∗ K ⟨⟩))
          ⊢ wp frame (wpE (defs₀ (F := F)) Variants.none c none) E (cc1__kl_kernel i arg2 harg2 arg3 harg3 arg4 harg4 arg5 harg5 arg6 harg6) K } := by
  refine ⟨?_, fun xi E K => ?run⟩
  case run =>
    simp only [cc1__kl_kernel_eq_skeleton]; unfold cc1__kl_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- The last point: the output buffer at anything (it is stored whole); the accumulator at what the point before left.
    The body leaves the found pieces in the output buffer and in the accumulator. -/
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__kl_kernel i arg2 harg2 arg3 harg3 arg4 harg4 arg5 harg5 arg6 harg6) K } := by
  refine ⟨?_, ?_, fun E K => ?run⟩
  case run =>
    simp only [cc1__kl_kernel_eq_skeleton]; unfold cc1__kl_kernel_skel
    rw [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## The pieces cover their buffers -/

theorem coverFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 x1 x2 : Vec F S512x1024 .f32) (y : S1x1.Idx) :
    ∃ pc ∈ (runFirst c i arg2 harg2 arg3 harg3 arg4 harg4 arg5 harg5 arg6 harg6 hc0 hc1 x0 x1 x2).1, y ∈ pc.1.set :=
  View.cover_of_tiledL _ S1x1.size (by sl_kernel_rfl) y

theorem coverMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 x1 x2 : Vec F S512x1024 .f32) (xs : Vec F S1x1 .f32) (y : S1x1.Idx) :
    ∃ pc ∈ (runMid c i arg2 harg2 arg3 harg3 arg4 harg4 arg5 harg5 arg6 harg6 hc0 hc1 x0 x1 x2 xs).1, y ∈ pc.1.set :=
  View.cover_of_tiledL _ S1x1.size (by sl_kernel_rfl) y

theorem coverLastAcc (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) (y : S1x1.Idx) :
    ∃ pc ∈ (runLast c i arg2 harg2 arg3 harg3 arg4 harg4 arg5 harg5 arg6 harg6 hc0 hc1 x0 x1 x2 xs).2.1, y ∈ pc.1.set :=
  View.cover_of_tiledL _ S1x1.size (by sl_kernel_rfl) y

theorem coverLastOut (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) (y : S1x1.Idx) :
    ∃ pc ∈ (runLast c i arg2 harg2 arg3 harg3 arg4 harg4 arg5 harg5 arg6 harg6 hc0 hc1 x0 x1 x2 xs).1, y ∈ pc.1.set :=
  View.cover_of_tiledL _ S1x1.size (by sl_kernel_rfl) y

/-! ## What each case leaves, read back -/

/-- The accumulator after the first point. -/
def accFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 x1 x2 : Vec F S512x1024 .f32) : Vec F S1x1 .f32 :=
  accV.read (Elt F) (accV.writes (Elt F) accV.junk (runFirst c i arg2 harg2 arg3 harg3 arg4 harg4 arg5 harg5 arg6 harg6 hc0 hc1 x0 x1 x2).1)
/-- The accumulator after a point that is neither the first nor the last. -/
def accMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 x1 x2 : Vec F S512x1024 .f32) (xs : Vec F S1x1 .f32) : Vec F S1x1 .f32 :=
  accV.read (Elt F) (accV.writes (Elt F) accV.junk (runMid c i arg2 harg2 arg3 harg3 arg4 harg4 arg5 harg5 arg6 harg6 hc0 hc1 x0 x1 x2 xs).1)
/-- The accumulator after the last point. -/
def accLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) : Vec F S1x1 .f32 :=
  accV.read (Elt F) (accV.writes (Elt F) accV.junk (runLast c i arg2 harg2 arg3 harg3 arg4 harg4 arg5 harg5 arg6 harg6 hc0 hc1 x0 x1 x2 xs).2.1)
/-- The output buffer after the last point. -/
def outLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) : Vec F S1x1 .f32 :=
  outV.read (Elt F) (outV.writes (Elt F) outV.junk (runLast c i arg2 harg2 arg3 harg3 arg4 harg4 arg5 harg5 arg6 harg6 hc0 hc1 x0 x1 x2 xs).1)

end Cert.KernelIdeal.KL

end
-- ==== Proof.KlFrame.lean ====
/-
  The divergence kernel's region: what its accumulator holds after each grid point, the region's invariant, its proof
  data at ANY contents `V` of the core's buffers when the region is entered, and the body obligation at every point.

  The accumulator after point n is defined by recursion on n: at point 0 what the first case leaves from the point's
  three input blocks (the accumulator is reset there); at any later point what the accumulating case (at the last point:
  the write-back case) leaves from the blocks and from the accumulator after point n - 1. The output window's buffer
  after the last point is what that case stores into it; at the other points the window is idle and its buffer is handed
  back as found.
  The invariant before the first point is the region's scoped buffers at anything; before any later point it is the
  accumulator at the value after the point before, the other region's scoped buffers at anything, and the generator
  register at some state.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import proofs.«161406_j5574867550300_1_alg».proof.Proof.KlRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KL

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The input windows are never idle. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel

/-! ## The accumulator after each point -/

/-- What the accumulator holds after the body at position `n`. -/
def accAt (c : Dev nD) : (n : ℕ) → n < cfg1.N → Vec F S1x1 .f32
  | 0, hn => accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((condFirst_iff ⟨0, hn⟩).mpr rfl)
      (fun h => absurd ((condLast_iff ⟨0, hn⟩).mp h) (by (try dsimp only); omega)) (iblk V c 0 ⟨0, hn⟩) (iblk V c 1 ⟨0, hn⟩) (iblk V c 2 ⟨0, hn⟩)
  | n + 1, hn =>
    if h1 : n + 1 = 31 then
      accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => absurd ((condFirst_iff ⟨n + 1, hn⟩).mp h) (by (try dsimp only); omega)) ((condLast_iff ⟨n + 1, hn⟩).mpr h1)
        (iblk V c 0 ⟨n + 1, hn⟩) (iblk V c 1 ⟨n + 1, hn⟩) (iblk V c 2 ⟨n + 1, hn⟩) (accAt c n (Nat.lt_of_succ_lt hn))
    else
      accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => absurd ((condFirst_iff ⟨n + 1, hn⟩).mp h) (by (try dsimp only); omega)) (fun h => h1 ((condLast_iff ⟨n + 1, hn⟩).mp h))
        (iblk V c 0 ⟨n + 1, hn⟩) (iblk V c 1 ⟨n + 1, hn⟩) (iblk V c 2 ⟨n + 1, hn⟩) (accAt c n (Nat.lt_of_succ_lt hn))

/-- At the first point: the reset case's contents. -/
theorem accAt_first (c : Dev nD) (t : Fin cfg1.N) (h0 : t.val = 0)
    (hc0 : condFirst (grid1.coords t)) (hc1 : ¬condLast (grid1.coords t)) :
    accAt V c t.val t.isLt = accFirst c (grid1.coords t) (ms0 t) (hs0 t) (ms1 t) (hs1 t) (ms2 t) (hs2 t) (ms3 t) (hs3 t) accM (Memref.isWhole_whole _) hc0 hc1 (iblk V c 0 t) (iblk V c 1 t) (iblk V c 2 t) := by
  obtain ⟨n, hn⟩ := t
  cases n with
  | zero => rfl
  | succ n => exact absurd h0 (Nat.succ_ne_zero n)

/-- At a point that is neither the first nor the last: the accumulating case's contents over what the point before left. -/
theorem accAt_mid (c : Dev nD) (t : Fin cfg1.N) (h0 : ¬t.val = 0) (h1 : ¬t.val = 31)
    (hc0 : ¬condFirst (grid1.coords t)) (hc1 : ¬condLast (grid1.coords t)) :
    accAt V c t.val t.isLt = accMid c (grid1.coords t) (ms0 t) (hs0 t) (ms1 t) (hs1 t) (ms2 t) (hs2 t) (ms3 t) (hs3 t) accM (Memref.isWhole_whole _) hc0 hc1 (iblk V c 0 t) (iblk V c 1 t) (iblk V c 2 t)
      (accAt V c (t.val - 1) (Nat.lt_of_le_of_lt (Nat.sub_le _ _) t.isLt)) := by
  obtain ⟨n, hn⟩ := t
  cases n with
  | zero => exact absurd rfl h0
  | succ n => exact (dif_neg h1).trans rfl

/-- At the last point: the write-back case's contents over what the point before left. -/
theorem accAt_last (c : Dev nD) (t : Fin cfg1.N) (h0 : ¬t.val = 0) (h1 : t.val = 31)
    (hc0 : ¬condFirst (grid1.coords t)) (hc1 : condLast (grid1.coords t)) :
    accAt V c t.val t.isLt = accLast c (grid1.coords t) (ms0 t) (hs0 t) (ms1 t) (hs1 t) (ms2 t) (hs2 t) (ms3 t) (hs3 t) accM (Memref.isWhole_whole _) hc0 hc1 (iblk V c 0 t) (iblk V c 1 t) (iblk V c 2 t)
      (accAt V c (t.val - 1) (Nat.lt_of_le_of_lt (Nat.sub_le _ _) t.isLt)) := by
  obtain ⟨n, hn⟩ := t
  cases n with
  | zero => exact absurd rfl h0
  | succ n => exact (dif_pos h1).trans rfl

/-- What the output window's buffer holds after the body at point `t`: at the last point what that case stores, from the
    blocks and the accumulator after the point before; elsewhere a value nothing reads (the window is idle). -/
def outAt (c : Dev nD) (t : Fin cfg1.N) : Vec F S1x1 .f32 :=
  if h1 : t.val = 31 then
    outLast c (grid1.coords t) (ms0 t) (hs0 t) (ms1 t) (hs1 t) (ms2 t) (hs2 t) (ms3 t) (hs3 t) accM (Memref.isWhole_whole _) (fun h => by have := (condFirst_iff t).mp h; omega) ((condLast_iff t).mpr h1)
      (iblk V c 0 t) (iblk V c 1 t) (iblk V c 2 t) (accAt V c (t.val - 1) (Nat.lt_of_le_of_lt (Nat.sub_le _ _) t.isLt))
  else outV.read (Elt F) outV.junk

theorem outAt_last (c : Dev nD) (t : Fin cfg1.N) (h1 : t.val = 31)
    (hc0 : ¬condFirst (grid1.coords t)) (hc1 : condLast (grid1.coords t)) :
    outAt V c t = outLast c (grid1.coords t) (ms0 t) (hs0 t) (ms1 t) (hs1 t) (ms2 t) (hs2 t) (ms3 t) (hs3 t) accM (Memref.isWhole_whole _) hc0 hc1 (iblk V c 0 t) (iblk V c 1 t) (iblk V c 2 t)
      (accAt V c (t.val - 1) (Nat.lt_of_le_of_lt (Nat.sub_le _ _) t.isLt)) := by
  unfold outAt; exact (dif_pos h1).trans rfl

/-! ## The region's invariant -/

/-- The region's scoped rest: the other region's eleven scoped buffers, each whole at some contents (this region leaves
    them alone), and the accumulator as a buffer owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) accM fullShare d)) ∗ (∃ r, prngReg c r)) := by
  unfold Pipeline.ΦA; rw [scopedRest1_eq]; simp only [accM, owns_whole]; try rfl

/-- The invariant before position `n`. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) accM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) accM fullShare (accAt V c n hn)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) accM fullShare (accAt V c (n - 1) (by omega))) ∗ (∃ r, prngReg c r)) := by
  cases n with
  | zero => exact absurd rfl hz
  | succ n => rfl

/-! ## The proof data -/

/-- The region's proof data on core `c`: the arrays as the region finds them; after the body at point `t` each input's
    buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]
theorem before0 (c : Dev nD) (t : Fin cfg1.N) (d) : (dat V c).before 0 t d = iblk V c 0 t := before_of_0 V (dat V c) (A_eq V c 0) (after0 V c) t d
theorem before1 (c : Dev nD) (t : Fin cfg1.N) (d) : (dat V c).before 1 t d = iblk V c 1 t := before_of_1 V (dat V c) (A_eq V c 1) (after1 V c) t d
theorem before2 (c : Dev nD) (t : Fin cfg1.N) (d) : (dat V c).before 2 t d = iblk V c 2 t := before_of_2 V (dat V c) (A_eq V c 2) (after2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t)

set_option maxHeartbeats 4800000 in
/-- The body at any point. The inputs' buffers hold their blocks; the point's position says which case it is in; the
    invariant hands the body the accumulator (at anything at the first point, else at what the point before left) and
    takes it back at this point's contents; the idle output buffer goes through untouched, and at the last point it is
    left at what the case stores. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val = 0
  · have h1 : ¬ t.val = 31 := by omega
    have hc0 : condFirst (grid1.coords t) := (condFirst_iff t).mpr h0
    have hc1 : ¬condLast (grid1.coords t) := fun h => h1 ((condLast_iff t).mp h)
    rw [Dat.leavesExact_idle (dat V c) 3 t (idleOut t h1) (noFlushOut t h1)]
    rw [accAt_first V c t h0 hc0 hc1]
    unfold accFirst; (try dsimp only)
    rw [Phi_castSucc V c t, PhiS_zero V c _ _ h0, PhiA_eq]
    iintro ⟨⟨⟨Hb1, Hb2, Hb3, Hb4, Hb5, Hb6, Hb7, Hb8, Hb9, Hb10, Hb11, HS⟩, Hg⟩, Ho, ⟨%d0, H0⟩, ⟨%d1, H1⟩, ⟨%d2, H2⟩, ⟨%d3, H3⟩⟩
    iapply ((runFirst c (grid1.coords t) _ _ _ _ _ _ _ _ _ _ hc0 hc1 (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hb1 Hb2 Hb3 Hb4 Hb5 Hb6 Hb7 Hb8 Hb9 Hb10 Hb11 Hg]
    · isplitl [HS Hb1 Hb2 Hb3 Hb4 Hb5 Hb6 Hb7 Hb8 Hb9 Hb10 Hb11]
      · isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        isplitl [Hb10]; · iexact Hb10
        isplitl [Hb11]; · iexact Hb11
        unfold owns; iexists _; isplitr
        swap; · iexact HS
        ipureintro; exact View.read_writes_of_cover _ _ _ _ _ (coverFirst c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := h0
    have hc0 : ¬condFirst (grid1.coords t) := fun h => h0 ((condFirst_iff t).mp h)
    by_cases h1 : t.val = 31
    · have hc1 : condLast (grid1.coords t) := (condLast_iff t).mpr h1
      rw [show (dat V c).leavesExact 3 t = owns (c : Thread nD τ) (ms3 t) fullShare ((dat V c).after 3 t) from by
        unfold Dat.leavesExact; rw [liveOut t h1], after3]
      rw [accAt_last V c t h0 h1 hc0 hc1, outAt_last V c t h1 hc0 hc1]
      unfold accLast outLast; (try dsimp only)
      rw [Phi_castSucc V c t, PhiS_pos V c _ _ hz]
      iintro ⟨⟨⟨Hb1, Hb2, Hb3, Hb4, Hb5, Hb6, Hb7, Hb8, Hb9, Hb10, Hb11, HS⟩, Hg⟩, Ho, ⟨%d0, H0⟩, ⟨%d1, H1⟩, ⟨%d2, H2⟩, ⟨%d3, H3⟩⟩
      iapply ((runLast c (grid1.coords t) _ _ _ _ _ _ _ _ _ _ hc0 hc1 (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hb1 Hb2 Hb3 Hb4 Hb5 Hb6 Hb7 Hb8 Hb9 Hb10 Hb11 Hg]
      · isplitl [HS Hb1 Hb2 Hb3 Hb4 Hb5 Hb6 Hb7 Hb8 Hb9 Hb10 Hb11]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          unfold owns; iexists _; isplitr
          swap; · iexact HS
          ipureintro; exact View.read_writes_of_cover _ _ _ _ _ (coverLastAcc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _)
    · have hc1 : ¬condLast (grid1.coords t) := fun h => h1 ((condLast_iff t).mp h)
      rw [Dat.leavesExact_idle (dat V c) 3 t (idleOut t h1) (noFlushOut t h1)]
      rw [accAt_mid V c t h0 h1 hc0 hc1]
      unfold accMid; (try dsimp only)
      rw [Phi_castSucc V c t, PhiS_pos V c _ _ hz]
      iintro ⟨⟨⟨Hb1, Hb2, Hb3, Hb4, Hb5, Hb6, Hb7, Hb8, Hb9, Hb10, Hb11, HS⟩, Hg⟩, Ho, ⟨%d0, H0⟩, ⟨%d1, H1⟩, ⟨%d2, H2⟩, ⟨%d3, H3⟩⟩
      iapply ((runMid c (grid1.coords t) _ _ _ _ _ _ _ _ _ _ hc0 hc1 (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hb1 Hb2 Hb3 Hb4 Hb5 Hb6 Hb7 Hb8 Hb9 Hb10 Hb11 Hg]
      · isplitl [HS Hb1 Hb2 Hb3 Hb4 Hb5 Hb6 Hb7 Hb8 Hb9 Hb10 Hb11]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          isplitl [Hb9]; · iexact Hb9
          isplitl [Hb10]; · iexact Hb10
          isplitl [Hb11]; · iexact Hb11
          unfold owns; iexists _; isplitr
          swap; · iexact HS
          ipureintro; exact View.read_writes_of_cover _ _ _ _ _ (coverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with (its scoped buffers at anything, the generator register) is the invariant before
    the first point. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives that back: the accumulator's named contents are forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA_eq]
  iintro ⟨⟨Hb1, Hb2, Hb3, Hb4, Hb5, Hb6, Hb7, Hb8, Hb9, Hb10, Hb11, HS⟩, Hg⟩
  isplitl [HS Hb1 Hb2 Hb3 Hb4 Hb5 Hb6 Hb7 Hb8 Hb9 Hb10 Hb11]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    iexists _; iexact HS
  iexact Hg

end Cert.KernelIdeal.KL

end
-- ==== Proof.Run.lean ====
/-
  The whole program as a run: the two kernel regions and the closing reshape, from the launch to the return.

  Between two items of the program a core holds every unscoped buffer at known contents: at launch the memory's; after a
  region, that region's arrays at what its pipeline leaves (the input arrays as entered, the output array at its
  write-backs folded) and every other buffer as entered; after the reshape, its result written. The run says: every
  weakly fair execution terminates without a fault, and the final memory holds each unscoped buffer at the last of these
  contents. The frame claim (the arguments end as launched) and the results' values are both read off that.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import proofs.«161406_j5574867550300_1_alg».proof.Proof.MatmulFrame
import proofs.«161406_j5574867550300_1_alg».proof.Proof.KlFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the linear layer's region. -/
def W1 (c : Dev nD) : Valuation τ sig (Elt F) :=
  Pipeline.withArrays spec0 c (W0 m c) fun w => (MM.dat (V0 m) c).arrAt w cfg0.N
theorem W1_arr (c : Dev nD) (w : Fin cfg0.W) :
    W1 m c (Proc.devRef .tc (Pipeline.arrRef spec0 w)) = (MM.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (MM.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the divergence region. -/
def W2 (c : Dev nD) : Valuation τ sig (Elt F) :=
  Pipeline.withArrays spec1 c (W1 m c) fun w => (KL.dat (V1 m) c).arrAt w cfg1.N
theorem W2_arr (c : Dev nD) (w : Fin cfg1.W) :
    W2 m c (Proc.devRef .tc (Pipeline.arrRef spec1 w)) = (KL.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (KL.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the closing reshape. -/
abbrev W3 : Dev nD → Valuation τ sig (Elt F) := fun c => StableHlo.after hostOps2 (W2 m c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => MM.dat (V0 m) c
  | ⟨1, _⟩ => fun c => KL.dat (V1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- The closing reshape allocates nothing. -/
theorem hostOps2_fresh : (hostOps2 : List (HloOp τ sig (Elt F))).Forall fun op => op.fresh = ∅ := by
  simp only [List.Forall]; repeat' constructor

/-- The closing reshape as a segment, from the contents after the second region. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W0`, left at `W1`. Its arrays are split out of
    the unscoped buffers and put back at what the pipeline leaves; the generator register goes into the region's invariant
    and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (MM.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from MM.Phi_in (V0 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from MM.Phi_out (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split out of
    the unscoped buffers and put back at what the pipeline leaves; the generator register goes into the region's invariant
    and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (KL.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from KL.Phi_in (V1 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from KL.Phi_out (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m), .host (hseg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and the
    final memory holds every unscoped buffer at the contents after the closing reshape. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## Reading the last contents back -/

/-- The activations: the reshape does not write them, the second region does not stage them, the first region only reads them. -/
theorem W3_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
      simp only [hostOps2, List.Forall, StableHlo.reshape_writes, Finset.mem_singleton]
      exact StableHlo.devRef_ne_of_ne (by decide)))
    _ = W1 m c (Proc.devRef .tc main_arg0) := W2_of_ne m c main_arg0 (by decide)
    _ = W0 m c (Proc.devRef .tc main_arg0) := (W1_arr m c 0).trans (((MM.dat (V0 m) c).arrAt_in 0 rfl _).trans (MM.A_eq (V0 m) c 0))
    _ = m ((c : Thread nD τ).loc main_arg0) := rfl

/-- After the first region each weight array is as launched. -/
theorem W1_arg1 (c : Dev nD) : W1 m c (Proc.devRef .tc main_arg1) = m ((c : Thread nD τ).loc main_arg1) :=
  (W1_arr m c 1).trans (((MM.dat (V0 m) c).arrAt_in 1 rfl _).trans (MM.A_eq (V0 m) c 1))
theorem W1_arg2 (c : Dev nD) : W1 m c (Proc.devRef .tc main_arg2) = m ((c : Thread nD τ).loc main_arg2) :=
  (W1_arr m c 2).trans (((MM.dat (V0 m) c).arrAt_in 2 rfl _).trans (MM.A_eq (V0 m) c 2))
theorem W1_arg3 (c : Dev nD) : W1 m c (Proc.devRef .tc main_arg3) = m ((c : Thread nD τ).loc main_arg3) :=
  (W1_arr m c 3).trans (((MM.dat (V0 m) c).arrAt_in 3 rfl _).trans (MM.A_eq (V0 m) c 3))

/-- The weight arrays: the reshape does not write them, both regions only read them. -/
theorem W3_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
      simp only [hostOps2, List.Forall, StableHlo.reshape_writes, Finset.mem_singleton]
      exact StableHlo.devRef_ne_of_ne (by decide)))
    _ = W1 m c (Proc.devRef .tc main_arg1) := (W2_arr m c 0).trans (((KL.dat (V1 m) c).arrAt_in 0 rfl _).trans (KL.A_eq (V1 m) c 0))
    _ = m ((c : Thread nD τ).loc main_arg1) := W1_arg1 m c
theorem W3_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
      simp only [hostOps2, List.Forall, StableHlo.reshape_writes, Finset.mem_singleton]
      exact StableHlo.devRef_ne_of_ne (by decide)))
    _ = W1 m c (Proc.devRef .tc main_arg2) := (W2_arr m c 1).trans (((KL.dat (V1 m) c).arrAt_in 1 rfl _).trans (KL.A_eq (V1 m) c 1))
    _ = m ((c : Thread nD τ).loc main_arg2) := W1_arg2 m c
theorem W3_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
      simp only [hostOps2, List.Forall, StableHlo.reshape_writes, Finset.mem_singleton]
      exact StableHlo.devRef_ne_of_ne (by decide)))
    _ = W1 m c (Proc.devRef .tc main_arg3) := (W2_arr m c 2).trans (((KL.dat (V1 m) c).arrAt_in 2 rfl _).trans (KL.A_eq (V1 m) c 2))
    _ = m ((c : Thread nD τ).loc main_arg3) := W1_arg3 m c

/-- The linear layer's result: neither the reshape nor the second region touches it; it is what the first region's
    pipeline leaves in its output array. -/
theorem W3_v0 (c : Dev nD) : W3 m c (Proc.devRef .tc main_v0) = (MM.dat (V0 m) c).arrAt 4 cfg0.N :=
  calc W3 m c (Proc.devRef .tc main_v0)
    _ = W2 m c (Proc.devRef .tc main_v0) := StableHlo.after_of_forall_not_mem (b := Proc.devRef .tc main_v0) _ _ (List.forall_iff_forall_mem.mp (by
      simp only [hostOps2, List.Forall, StableHlo.reshape_writes, Finset.mem_singleton]
      exact StableHlo.devRef_ne_of_ne (by decide)))
    _ = W1 m c (Proc.devRef .tc main_v0) := W2_of_ne m c main_v0 (by decide)
    _ = (MM.dat (V0 m) c).arrAt 4 cfg0.N := W1_arr m c 4

/-- The frame claim's post at any float instance: the run terminates without a fault and the four arguments end as launched. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c)⟩) (run_all m ρ)

end Cert.KernelIdeal.Run

end
-- ==== Proof.MatmulPieces.lean ====
/-
  The linear layer's region: what each case of the body leaves, as the body's own arithmetic.
  The pieces a run leaves in the accumulator are one whole-buffer store of the accumulation step's value — the step
  applied to the four input blocks and to the accumulator it loaded: zeros at a reset point (the reset's store is read
  back), else what the point before left. At a write-back point the output buffer receives the accumulator just stored.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import proofs.«161406_j5574867550300_1_alg».proof.Proof.MatmulRuns
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zeros, however spelt. -/
private theorem hz : (![0, 0] : Fin 2 → Nat) = fun _ => 0 := funext fun a => by fin_cases a <;> rfl

/-- After a reset point: one step from zeros. -/
theorem accReset_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : condReset i) (hc1 : ¬condFlush i)
    (x0 x1 x2 x3 : Vec F S512x1024 .f32) :
    accReset c i arg2 harg2 arg3 harg3 arg4 harg4 arg5 harg5 arg6 harg6 arg7 harg7 hc0 hc1 x0 x1 x2 x3 = k0_pay2 x2 x1 x3 x0 (k0_pay1 (F := F)) := by
  -- the pieces cover the buffer, so what is read back is their overlay, whatever was there before
  unfold accReset
  rw [View.read_writes_eq_canon _ _ _ (coverReset c i arg2 harg2 arg3 harg3 arg4 harg4 arg5 harg5 arg6 harg6 arg7 harg7 hc0 hc1 x0 x1 x2 x3)]
  unfold runReset
  dsimp only
  sl_unfold_words
  -- two whole-buffer stores: the later one (the step's) is what remains, and the accumulator it loaded is the earlier
  -- one's zeros read back whole
  rw [View.canon_cons_unit_zero (S := S512x512) hz, View.readCov_unit_zero (S := S512x512) _ hz]
  -- each input block is loaded whole from a whole buffer: the load reads the contents
  simp only [View.readAt_eq_ld, harg2.read_unread, harg3.read_unread, harg4.read_unread, harg5.read_unread,
    View.ld_unit_zero (S := S512x1024) hz]

/-- After a point with reduction coordinate 1 or 2: one step from what the point before left. -/
theorem accMid_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : ¬condFlush i)
    (x0 x1 x2 x3 : Vec F S512x1024 .f32) (xs : Vec F S512x512 .f32) :
    accMid c i arg2 harg2 arg3 harg3 arg4 harg4 arg5 harg5 arg6 harg6 arg7 harg7 hc0 hc1 x0 x1 x2 x3 xs = k0_pay2 x2 x1 x3 x0 xs := by
  -- one whole-buffer store covers: what is read back is its payload
  unfold accMid
  rw [View.read_writes_eq_canon _ _ _ (coverMid c i arg2 harg2 arg3 harg3 arg4 harg4 arg5 harg5 arg6 harg6 arg7 harg7 hc0 hc1 x0 x1 x2 x3 xs)]
  unfold runMid
  dsimp only
  sl_unfold_words
  rw [View.canon_unit_zero (S := S512x512) hz]
  -- the four input blocks and the accumulator are loaded whole from whole buffers: each load reads the contents
  simp only [View.readAt_eq_ld, harg2.read_unread, harg3.read_unread, harg4.read_unread, harg5.read_unread, harg7.read_unread,
    View.ld_unit_zero (S := S512x1024) hz, View.ld_unit_zero (S := S512x512) hz]

/-- After a write-back point: the same step. -/
theorem accFlush_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) :
    accFlush c i arg2 harg2 arg3 harg3 arg4 harg4 arg5 harg5 arg6 harg6 arg7 harg7 hc0 hc1 x0 x1 x2 x3 xs = k0_pay2 x2 x1 x3 x0 xs := by
  -- as at a middle point: the write-back branch comes after the step's store and does not touch the accumulator
  unfold accFlush
  rw [View.read_writes_eq_canon _ _ _ (coverFlushAcc c i arg2 harg2 arg3 harg3 arg4 harg4 arg5 harg5 arg6 harg6 arg7 harg7 hc0 hc1 x0 x1 x2 x3 xs)]
  unfold runFlush
  dsimp only
  sl_unfold_words
  rw [View.canon_unit_zero (S := S512x512) hz]
  simp only [View.readAt_eq_ld, harg2.read_unread, harg3.read_unread, harg4.read_unread, harg5.read_unread, harg7.read_unread,
    View.ld_unit_zero (S := S512x1024) hz, View.ld_unit_zero (S := S512x512) hz]

/-- The output buffer at a write-back point: the accumulator just stored. -/
theorem outFlush_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬condReset i) (hc1 : condFlush i)
    (x0 x1 x2 x3 : Vec F S512x1024 .f32) (xs : Vec F S512x512 .f32) :
    outFlush c i arg2 harg2 arg3 harg3 arg4 harg4 arg5 harg5 arg6 harg6 arg7 harg7 hc0 hc1 x0 x1 x2 x3 xs = k0_pay2 x2 x1 x3 x0 xs := by
  -- the output buffer's one whole store carries the accumulator loaded whole just after the step's whole store:
  -- that store's payload
  unfold outFlush
  rw [View.read_writes_eq_canon _ _ _ (coverFlushOut c i arg2 harg2 arg3 harg3 arg4 harg4 arg5 harg5 arg6 harg6 arg7 harg7 hc0 hc1 x0 x1 x2 x3 xs)]
  unfold runFlush
  dsimp only
  sl_unfold_words
  rw [View.canon_unit_zero (S := S512x512) hz, View.readCov_unit_zero (S := S512x512) _ hz]
  simp only [View.readAt_eq_ld, harg2.read_unread, harg3.read_unread, harg4.read_unread, harg5.read_unread, harg7.read_unread,
    View.ld_unit_zero (S := S512x1024) hz, View.ld_unit_zero (S := S512x512) hz]

end Cert.KernelIdeal.MM

end
-- ==== Proof.MatmulStep.lean ====
/-
  One accumulation step of the linear layer, read at an entry, at the ideal instance.
  The step adds to the accumulator the product of the activations' block (512 × 1024) with the sampled weights' block
  (512 × 1024, contracted along its columns): entry (b, o) gains Σ_l x[b, l] · weight(μ[o, l], σ[o, l], ε[o, l]).
  Changes of float format are the identity at the ideal instance, and a product into a zero accumulator is a plain sum.
-/
import proofs.«161406_j5574867550300_1_alg».proof.Proof.Spec
import proofs.«161406_j5574867550300_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.MM

open Cert.KernelIdeal Cert.KernelIdeal.Gen Idealize.ShloMosaic

/-! ## The product's operand indices, axis by axis

The product contracts the second axis of both blocks: at output entry `i = (b, o)` and contraction position `q`, the
left operand is read at `(b, q)` and the right at `(o, q)`. -/

/-- Left operand, first axis: the output's first coordinate. -/
theorem lhs_pay2_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- Left operand, second axis: the contraction position. -/
theorem lhs_pay2_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- Right operand, first axis: the output's second coordinate. -/
theorem rhs_pay2_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- Right operand, second axis: the contraction position. -/
theorem rhs_pay2_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The reset's stored value is zero everywhere. -/
theorem pay1_apply (j : S512x512.Idx) : k0_pay1 (F := Ideal) j = 0 := by
  unfold k0_pay1
  rw [shapeCast_self]
  exact Ideal.ofBits_zero_f32

/-- One step at entry (b, o): the accumulator's entry plus the block product's. Arguments in the step's own order:
    raw scales, means, noise, activations, accumulator. -/
theorem pay2_apply (xσ xμ xε xx : Vec Ideal S512x1024 .f32) (xs : Vec Ideal S512x512 .f32) (b o : Fin 512) :
    k0_pay2 (F := Ideal) xσ xμ xε xx xs (ValueIdx.ix2 b o)
      = xs (ValueIdx.ix2 b o)
        + ∑ l : Fin 1024, xx (ValueIdx.ix2 b l) * Cert.Spec.weight (F := Ideal) (xμ (ValueIdx.ix2 o l)) (xσ (ValueIdx.ix2 o l)) (xε (ValueIdx.ix2 o l)) := by
  unfold k0_pay2
  rw [shapeCast_self, ValueIdx.addf_apply]
  refine congrArg (xs (ValueIdx.ix2 b o) + ·) ?_
  refine (Ideal.matmul_constant_zero_apply dot_S512x1024_S512x1024_S512x512_1_1_0_0_n_n none _ _ _).trans ?_
  rw [← Equiv.sum_comp (ValueIdx.contrEquiv1 dot_S512x1024_S512x1024_S512x512_1_1_0_0_n_n 1024 rfl rfl).symm]
  refine Finset.sum_congr rfl fun l _ => ?_
  have hl := ValueIdx.contrEquiv1_symm_val dot_S512x1024_S512x1024_S512x512_1_1_0_0_n_n 1024 rfl rfl l
  have el : dot_S512x1024_S512x1024_S512x512_1_1_0_0_n_n.lhsIdx (ValueIdx.ix2 b o) ((ValueIdx.contrEquiv1 dot_S512x1024_S512x1024_S512x512_1_1_0_0_n_n 1024 rfl rfl).symm l) = ValueIdx.ix2 b l := funext fun a => Fin.ext (by
    match a with
    | ⟨0, _⟩ => exact lhs_pay2_0 _ _
    | ⟨1, _⟩ => exact (lhs_pay2_1 _ _).trans hl)
  have er : dot_S512x1024_S512x1024_S512x512_1_1_0_0_n_n.rhsIdx (ValueIdx.ix2 b o) ((ValueIdx.contrEquiv1 dot_S512x1024_S512x1024_S512x512_1_1_0_0_n_n 1024 rfl rfl).symm l) = ValueIdx.ix2 o l := funext fun a => Fin.ext (by
    match a with
    | ⟨0, _⟩ => exact rhs_pay2_0 _ _
    | ⟨1, _⟩ => exact (rhs_pay2_1 _ _).trans hl)
  rw [el, er]
  rfl

end Cert.KernelIdeal.MM

end
-- ==== Proof.Sums.lean ====
import Idealize.ShloMosaic.Lib.ValueIdx

/-!
# Regrouping finite sums of extended reals

Three facts about finite sums in an additive commutative monoid, used at `EReal`: a sum over `m * n` points is a
double sum over `m` blocks of `n` points (the point `n * i + l` lies in block `i` at offset `l`); a sum over all
entries of a 4096×4096 array is the sum over 32 tiles of 512 rows × 1024 columns, tile `t = 4 * o + i` sitting at row
block `o = t / 4` and column block `i = t % 4`; and a sequence built by adding one term at a time, started at zero,
is the sequence of partial sums. Addition on `EReal` is commutative and associative everywhere, so no finiteness is
needed.
-/

open scoped BigOperators

namespace Cert.Proof.Sums

open Idealize.ShloMosaic

/-- Offset `l < n` inside block `i < m` is a point below `m * n`. -/
theorem block_lt {m n : ℕ} (i : Fin m) (l : Fin n) : n * i.val + l.val < m * n := by
  have hi : i.val + 1 ≤ m := i.isLt
  have hl : l.val < n := l.isLt
  calc n * i.val + l.val < n * i.val + n := by omega
    _ = n * (i.val + 1) := by rw [Nat.mul_succ]
    _ ≤ n * m := Nat.mul_le_mul_left n hi
    _ = m * n := Nat.mul_comm n m

/-- A sum over `N = m * n` points, block by block: the pair (block `i`, offset `l`) names the point `n * i + l`,
    and every point below `m * n` is named exactly once (by its quotient and remainder on division by `n`). -/
theorem sum_blocks {M : Type*} [AddCommMonoid M] {m n N : ℕ} (h : m * n = N) (f : Fin N → M) :
    ∑ k : Fin N, f k = ∑ i : Fin m, ∑ l : Fin n, f ⟨n * i.val + l.val, h ▸ block_lt i l⟩ := by
  subst h
  rw [← Equiv.sum_comp (finProdFinEquiv (m := m) (n := n)) f, Fintype.sum_prod_type]
  refine Finset.sum_congr rfl fun i _ => Finset.sum_congr rfl fun l _ => congrArg f (Fin.ext ?_)
  show l.val + n * i.val = n * i.val + l.val
  exact Nat.add_comm _ _

/-- Four column blocks of 1024 make the 4096 columns. -/
theorem sum_col_blocks (f : Fin 4096 → EReal) :
    ∑ k : Fin 4096, f k = ∑ i : Fin 4, ∑ l : Fin 1024, f ⟨1024 * i.val + l.val, by omega⟩ :=
  sum_blocks (m := 4) (n := 1024) (by norm_num) f

/-- Every entry of a 4096×4096 array, tile by tile (tile t = 4·o + i covers rows 512·o … and columns 1024·i …), row by
    row, lane by lane. -/
theorem sum_tiles (g : (⟨2, ![4096, 4096]⟩ : Shape).Idx → EReal) :
    ∑ j, g j = ∑ t : Fin 32, ∑ r : Fin 512, ∑ l : Fin 1024,
      g (ValueIdx.ix2 (⟨512 * (t.val / 4) + r.val, by omega⟩ : Fin 4096)
        (⟨1024 * (t.val % 4) + l.val, by omega⟩ : Fin 4096)) := by
  -- rows, then columns
  rw [ValueIdx.sum_idx2]
  -- rows as 8 blocks of 512; inside each row, columns as 4 blocks of 1024
  rw [sum_blocks (M := EReal) (m := 8) (n := 512) (N := 4096) (by norm_num)]
  -- the 32 tiles as 8 row blocks of 4 column blocks each
  rw [sum_blocks (M := EReal) (m := 8) (n := 4) (N := 32) (by norm_num)
    (fun t : Fin 32 => ∑ r : Fin 512, ∑ l : Fin 1024,
      g (ValueIdx.ix2 (⟨512 * (t.val / 4) + r.val, by omega⟩ : Fin 4096)
        (⟨1024 * (t.val % 4) + l.val, by omega⟩ : Fin 4096)))]
  refine Finset.sum_congr rfl fun o _ => ?_
  -- inside row block o: (row, column block) ↦ (column block, row)
  conv_rhs => rw [Finset.sum_comm]
  refine Finset.sum_congr rfl fun r _ => ?_
  rw [sum_blocks (M := EReal) (m := 4) (n := 1024) (N := 4096) (by norm_num)]
  refine Finset.sum_congr rfl fun i _ => Finset.sum_congr rfl fun l _ => ?_
  have hq : (4 * o.val + i.val) / 4 = o.val := by omega
  have hr : (4 * o.val + i.val) % 4 = i.val := by omega
  congr 2
  · exact Fin.ext (by show 512 * o.val + r.val = 512 * ((4 * o.val + i.val) / 4) + r.val; rw [hq])
  · exact Fin.ext (by show 1024 * i.val + l.val = 1024 * ((4 * o.val + i.val) % 4) + l.val; rw [hr])

/-- A running sum started at zero: A 0 = 0 + T 0, A (n+1) = A n + T (n+1). -/
theorem running_sum (T A : ℕ → EReal) (h0 : A 0 = 0 + T 0) (hs : ∀ n, A (n + 1) = A n + T (n + 1)) (n : ℕ) :
    A n = ∑ i ∈ Finset.range (n + 1), T i := by
  induction n with
  | zero => rw [h0, zero_add, Finset.sum_range_one]
  | succ k ih => rw [hs k, ih, Finset.sum_range_succ _ (k + 1)]

/-- The same over Fin 32, for the last point. -/
theorem sum_range_32 (T : ℕ → EReal) : ∑ i ∈ Finset.range 32, T i = ∑ t : Fin 32, T t.val :=
  Finset.sum_range T

end Cert.Proof.Sums
-- ==== Proof.MatmulValue.lean ====
/-
  The linear layer's region: the result array after the run, as one function of the arrays the region was entered with.

  The region walks a grid of 8 × 4 points, point t = 4·o + i. At point t the body adds to a 512 × 512 accumulator the
  product of the activations' block x[:, 1024·i …] with the sampled weights' block w[512·o …, 1024·i …], contracted along
  the block's 1024 columns; the accumulator starts from zero where i = 0, and where i = 3 it is stored into the output
  window's buffer and written back as block (0, o) of the 512 × 4096 result.

  Read at an entry: a write-back point t has reduction coordinate 3, the two points before it accumulate and the third
  before it resets, so the entry (b, r) written back at t is 0 + a(t-3) + a(t-2) + a(t-1) + a(t), where a(t') is the sum
  over l < 1024 of x[b, 1024·(t' mod 4) + l] · weight[512·(t' div 4) + r, 1024·(t' mod 4) + l]. The four points share
  t' div 4 = o and run through t' mod 4 = 0, 1, 2, 3, so the four addends are the four column blocks' shares of
  y[b, 512·o + r] = Σ_{k<4096} x[b, k] · weight[512·o + r, k]: a sum over 4096 columns is the sum over its 4 blocks of
  1024. Every entry (b, oo) of the result lies in the block written back at point 4·(oo div 512) + 3, so the array ends
  holding y everywhere. The input arrays are never written.
-/
import proofs.«161406_j5574867550300_1_alg».proof.Proof.MatmulFrame
import proofs.«161406_j5574867550300_1_alg».proof.Proof.MatmulPieces
import proofs.«161406_j5574867550300_1_alg».proof.Proof.MatmulStep
import proofs.«161406_j5574867550300_1_alg».proof.Proof.Sums
import proofs.«161406_j5574867550300_1_alg».proof.Proof.Spec
import Idealize.ShloMosaic.Lib.Pipeline.Value
import Idealize.ShloMosaic.Lib.ValueIdx

set_option maxRecDepth 16384

noncomputable section

namespace Cert.KernelIdeal.MM

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

namespace Layer

/-! ## Where each block sits in its array -/

/-- The index maps, decided over the 32 grid points: at point `t = 4·o + i` the activations' block is (0, i), the three
    weight arrays' blocks are (o, i), and the result's block is (0, o). -/
theorem idx_facts : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4
    ∧ win0_4.index t (0 : Fin 2) = 0 ∧ win0_4.index t (1 : Fin 2) = t.val / 4 :=
  (by decide +kernel : ∀ t : Fin grid0.N, _)

/-- A grid point is below 32, in a form arithmetic can use. -/
theorem lt32 (t : Fin cfg0.N) : t.val < 32 := lt_of_lt_of_eq t.isLt N_0

/-- The blocks at point `t`, each named at its literal type. -/
abbrev xblk (c : Dev nD) (t : Fin cfg0.N) : Vec Ideal S512x1024 .f32 := iblk V c 0 t
abbrev mblk (c : Dev nD) (t : Fin cfg0.N) : Vec Ideal S512x1024 .f32 := iblk V c 1 t
abbrev sblk (c : Dev nD) (t : Fin cfg0.N) : Vec Ideal S512x1024 .f32 := iblk V c 2 t
abbrev eblk (c : Dev nD) (t : Fin cfg0.N) : Vec Ideal S512x1024 .f32 := iblk V c 3 t

/-- The activations' block at point `t`: rows as they are, columns 1024·(t mod 4) onward. -/
theorem xblk_apply (c : Dev nD) (t : Fin cfg0.N) (b : Fin 512) (l : Fin 1024) (h : 1024 * (t.val % 4) + l.val < 4096) :
    xblk V c t (ix2 b l) = V c main_arg0 (ix2 b (⟨1024 * (t.val % 4) + l.val, h⟩ : Fin 4096)) := by
  obtain ⟨e0, e1, -⟩ := idx_facts t
  show V c main_arg0 (((cfg0.win 0).blk t).view.emb (ix2 b l)) = _
  refine congrArg (V c main_arg0) ?_
  funext a; apply Fin.ext
  match a with
  | ⟨0, _⟩ => show win0_0.index t (0 : Fin 2) * 512 + 1 * b.val = b.val; rw [e0]; omega
  | ⟨1, _⟩ => show win0_0.index t (1 : Fin 2) * 1024 + 1 * l.val = 1024 * (t.val % 4) + l.val; rw [e1]; omega

/-- The means' block at point `t`: rows 512·(t div 4) onward, columns 1024·(t mod 4) onward. -/
theorem mblk_apply (c : Dev nD) (t : Fin cfg0.N) (r : Fin 512) (l : Fin 1024)
    (hr : 512 * (t.val / 4) + r.val < 4096) (h : 1024 * (t.val % 4) + l.val < 4096) :
    mblk V c t (ix2 r l) = V c main_arg1 (ix2 (⟨512 * (t.val / 4) + r.val, hr⟩ : Fin 4096) (⟨1024 * (t.val % 4) + l.val, h⟩ : Fin 4096)) := by
  obtain ⟨-, -, e0, e1, -⟩ := idx_facts t
  show V c main_arg1 (((cfg0.win 1).blk t).view.emb (ix2 r l)) = _
  refine congrArg (V c main_arg1) ?_
  funext a; apply Fin.ext
  match a with
  | ⟨0, _⟩ => show win0_1.index t (0 : Fin 2) * 512 + 1 * r.val = 512 * (t.val / 4) + r.val; rw [e0]; omega
  | ⟨1, _⟩ => show win0_1.index t (1 : Fin 2) * 1024 + 1 * l.val = 1024 * (t.val % 4) + l.val; rw [e1]; omega

/-- The raw scales' block, likewise. -/
theorem sblk_apply (c : Dev nD) (t : Fin cfg0.N) (r : Fin 512) (l : Fin 1024)
    (hr : 512 * (t.val / 4) + r.val < 4096) (h : 1024 * (t.val % 4) + l.val < 4096) :
    sblk V c t (ix2 r l) = V c main_arg2 (ix2 (⟨512 * (t.val / 4) + r.val, hr⟩ : Fin 4096) (⟨1024 * (t.val % 4) + l.val, h⟩ : Fin 4096)) := by
  obtain ⟨-, -, -, -, e0, e1, -⟩ := idx_facts t
  show V c main_arg2 (((cfg0.win 2).blk t).view.emb (ix2 r l)) = _
  refine congrArg (V c main_arg2) ?_
  funext a; apply Fin.ext
  match a with
  | ⟨0, _⟩ => show win0_2.index t (0 : Fin 2) * 512 + 1 * r.val = 512 * (t.val / 4) + r.val; rw [e0]; omega
  | ⟨1, _⟩ => show win0_2.index t (1 : Fin 2) * 1024 + 1 * l.val = 1024 * (t.val % 4) + l.val; rw [e1]; omega

/-- The noise's block, likewise. -/
theorem eblk_apply (c : Dev nD) (t : Fin cfg0.N) (r : Fin 512) (l : Fin 1024)
    (hr : 512 * (t.val / 4) + r.val < 4096) (h : 1024 * (t.val % 4) + l.val < 4096) :
    eblk V c t (ix2 r l) = V c main_arg3 (ix2 (⟨512 * (t.val / 4) + r.val, hr⟩ : Fin 4096) (⟨1024 * (t.val % 4) + l.val, h⟩ : Fin 4096)) := by
  obtain ⟨-, -, -, -, -, -, e0, e1, -⟩ := idx_facts t
  show V c main_arg3 (((cfg0.win 3).blk t).view.emb (ix2 r l)) = _
  refine congrArg (V c main_arg3) ?_
  funext a; apply Fin.ext
  match a with
  | ⟨0, _⟩ => show win0_3.index t (0 : Fin 2) * 512 + 1 * r.val = 512 * (t.val / 4) + r.val; rw [e0]; omega
  | ⟨1, _⟩ => show win0_3.index t (1 : Fin 2) * 1024 + 1 * l.val = 1024 * (t.val % 4) + l.val; rw [e1]; omega

/-! ## One accumulation step, read at an entry -/

/-- What the step at point `t` adds to entry (b, o): the product of row b of the activations' block with row o of the
    sampled weights' block, contracted along the 1024 columns. -/
def addend (c : Dev nD) (t : Fin cfg0.N) (b o : Fin 512) : Ideal .f32 :=
  ∑ l : Fin 1024, xblk V c t (ix2 b l)
    * Cert.Spec.weight (F := Ideal) (mblk V c t (ix2 o l)) (sblk V c t (ix2 o l)) (eblk V c t (ix2 o l))

/-- At a point with reduction coordinate 0 the accumulator's entry is zero plus the point's addend. -/
theorem acc_reset_apply (c : Dev nD) (t : Fin cfg0.N) (h0 : t.val % 4 = 0) (b o : Fin 512) :
    accAt V c t.val t.isLt (ix2 b o) = 0 + addend V c t b o := by
  have hc0 : condReset (grid0.coords t) := (condReset_iff t).mpr h0
  have hc1 : ¬condFlush (grid0.coords t) := fun h => by have := (condFlush_iff t).mp h; omega
  refine (congrFun (accAt_reset V c t h0 hc0 hc1) (ix2 b o)).trans ?_
  refine (congrFun (accReset_eq c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t)) (ix2 b o)).trans ?_
  refine (pay2_apply (sblk V c t) (mblk V c t) (eblk V c t) (xblk V c t) (k0_pay1 (F := Ideal)) b o).trans ?_
  rw [pay1_apply]; rfl

/-- At a point with reduction coordinate 1 or 2 it is the entry the point before left plus the point's addend. -/
theorem acc_mid_apply (c : Dev nD) (t : Fin cfg0.N) (h0 : ¬t.val % 4 = 0) (h1 : ¬t.val % 4 = 3) (b o : Fin 512) :
    accAt V c t.val t.isLt (ix2 b o)
      = accAt V c (t.val - 1) (Nat.lt_of_le_of_lt (Nat.sub_le _ _) t.isLt) (ix2 b o) + addend V c t b o := by
  have hc0 : ¬condReset (grid0.coords t) := fun h => h0 ((condReset_iff t).mp h)
  have hc1 : ¬condFlush (grid0.coords t) := fun h => h1 ((condFlush_iff t).mp h)
  refine (congrFun (accAt_mid V c t h0 h1 hc0 hc1) (ix2 b o)).trans ?_
  refine (congrFun (accMid_eq c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t) (accAt V c (t.val - 1) (Nat.lt_of_le_of_lt (Nat.sub_le _ _) t.isLt))) (ix2 b o)).trans ?_
  exact pay2_apply (sblk V c t) (mblk V c t) (eblk V c t) (xblk V c t) (accAt V c (t.val - 1) (Nat.lt_of_le_of_lt (Nat.sub_le _ _) t.isLt)) b o

/-- At a point with reduction coordinate 3 the output window's buffer receives, at each entry, the entry the point
    before left plus the point's addend. -/
theorem out_flush_apply (c : Dev nD) (t : Fin cfg0.N) (h1 : t.val % 4 = 3) (b o : Fin 512) :
    outAt V c t (ix2 b o)
      = accAt V c (t.val - 1) (Nat.lt_of_le_of_lt (Nat.sub_le _ _) t.isLt) (ix2 b o) + addend V c t b o := by
  have hc0 : ¬condReset (grid0.coords t) := fun h => by have := (condReset_iff t).mp h; omega
  have hc1 : condFlush (grid0.coords t) := (condFlush_iff t).mpr h1
  refine (congrFun (outAt_flush V c t h1 hc0 hc1) (ix2 b o)).trans ?_
  refine (congrFun (outFlush_eq c (grid0.coords t) (ms0 t) (hs0 t) (ms1 t) (hs1 t) (ms2 t) (hs2 t) (ms3 t) (hs3 t) (ms4 t) (hs4 t) accM (Memref.isWhole_whole _) hc0 hc1 (iblk V c 0 t) (iblk V c 1 t) (iblk V c 2 t) (iblk V c 3 t) (accAt V c (t.val - 1) (Nat.lt_of_le_of_lt (Nat.sub_le _ _) t.isLt))) (ix2 b o)).trans ?_
  exact pay2_apply (sblk V c t) (mblk V c t) (eblk V c t) (xblk V c t) (accAt V c (t.val - 1) (Nat.lt_of_le_of_lt (Nat.sub_le _ _) t.isLt)) b o

/-- The accumulator after a point depends on the point's position only. -/
theorem accAt_congr (c : Dev nD) {n n' : ℕ} (e : n = n') (hn : n < cfg0.N) (hn' : n' < cfg0.N) :
    accAt V c n hn = accAt V c n' hn' := by subst e; rfl

/-- FOUR STEPS. At a write-back point `t` (reduction coordinate 3) the stored entry is the sum, from zero, of the addends
    of the four points t - 3, t - 2, t - 1, t: a reset point, two accumulating points, and the write-back point. -/
theorem out_four (c : Dev nD) (t t2 t1 t0 : Fin cfg0.N) (h3 : t.val % 4 = 3)
    (e2 : t2.val = t.val - 1) (e1 : t1.val = t.val - 2) (e0 : t0.val = t.val - 3) (b o : Fin 512) :
    outAt V c t (ix2 b o) = 0 + addend V c t0 b o + addend V c t1 b o + addend V c t2 b o + addend V c t b o := by
  have hN := lt32 t
  rw [out_flush_apply V c t h3 b o]
  rw [accAt_congr V c e2.symm _ t2.isLt, acc_mid_apply V c t2 (by omega) (by omega) b o]
  rw [accAt_congr V c (show t2.val - 1 = t1.val by omega) _ t1.isLt, acc_mid_apply V c t1 (by omega) (by omega) b o]
  rw [accAt_congr V c (show t1.val - 1 = t0.val by omega) _ t0.isLt, acc_reset_apply V c t0 (by omega) b o]

/-! ## The addends in the arrays' own coordinates -/

/-- Column block `i`'s share of entry (b, oo) of the linear layer: the 1024 products x[b, k] · weight[oo, k] with
    k = 1024·i + l. -/
def colTerm (x : Cert.Spec.SX.Idx → Ideal .f32) (μ σ ε : Cert.Spec.SW.Idx → Ideal .f32) (b : Fin 512) (oo : Fin 4096)
    (i : Fin 4) : Ideal .f32 :=
  ∑ l : Fin 1024, x (ix2 b (⟨1024 * i.val + l.val, by omega⟩ : Fin 4096))
    * Cert.Spec.weight (F := Ideal) (μ (ix2 oo (⟨1024 * i.val + l.val, by omega⟩ : Fin 4096)))
        (σ (ix2 oo (⟨1024 * i.val + l.val, by omega⟩ : Fin 4096))) (ε (ix2 oo (⟨1024 * i.val + l.val, by omega⟩ : Fin 4096)))

/-- The linear layer's entry is the sum of its four column blocks' shares. -/
theorem ySpec_blocks (x : Cert.Spec.SX.Idx → Ideal .f32) (μ σ ε : Cert.Spec.SW.Idx → Ideal .f32) (b : Fin 512) (oo : Fin 4096) :
    Cert.Spec.ySpec x μ σ ε (ix2 b oo) = ∑ i : Fin 4, colTerm x μ σ ε b oo i := by
  unfold Cert.Spec.ySpec colTerm
  refine (Cert.Proof.Sums.sum_col_blocks _).trans ?_
  refine Finset.sum_congr rfl fun i _ => Finset.sum_congr rfl fun l _ => ?_
  have hx : ∀ k : Fin 4096, Cert.Spec.xAt (ix2 b oo) k = ix2 b k := fun k => by
    funext a; match a with | ⟨0, _⟩ => rfl | ⟨1, _⟩ => rfl
  have hw : ∀ k : Fin 4096, Cert.Spec.wAt (ix2 b oo) k = ix2 oo k := fun k => by
    funext a; match a with | ⟨0, _⟩ => rfl | ⟨1, _⟩ => rfl
  rw [hx, hw]

/-- The step's addend at point `t` for the block's entry (b, o) is column block `t mod 4`'s share of the result's entry
    (b, 512·(t div 4) + o). -/
theorem addend_eq (c : Dev nD) (t : Fin cfg0.N) (b o : Fin 512) (i : Fin 4) (oo : Fin 4096)
    (hi : t.val % 4 = i.val) (ho : 512 * (t.val / 4) + o.val = oo.val) :
    addend V c t b o = colTerm (V c main_arg0) (V c main_arg1) (V c main_arg2) (V c main_arg3) b oo i := by
  obtain ⟨i, hi4⟩ := i
  obtain ⟨oo, hoo⟩ := oo
  dsimp only at hi ho
  subst hi ho
  unfold addend colTerm
  refine Finset.sum_congr rfl fun l _ => ?_
  rw [xblk_apply V c t b l (by omega), mblk_apply V c t o l hoo (by omega), sblk_apply V c t o l hoo (by omega),
    eblk_apply V c t o l hoo (by omega)]

/-! ## What a write-back point writes back -/

/-- The linear layer of the arrays the region was entered with, as contents of the result array. -/
abbrev G (c : Dev nD) : Buf (Elt Ideal) ((cfg0.win 4).arr.view.loc (c.tc : Thread nD τ)) :=
  Cert.Spec.ySpec (V c main_arg0) (V c main_arg1) (V c main_arg2) (V c main_arg3)

/-- Entry (b, o) of the result's block at point `t` is entry (b, 512·(t div 4) + o) of the array. -/
theorem oblk_emb (t : Fin cfg0.N) (b o : Fin 512) (ho : 512 * (t.val / 4) + o.val < 4096) :
    ((cfg0.win 4).blk t).view.emb (ix2 b o) = ix2 b (⟨512 * (t.val / 4) + o.val, ho⟩ : Fin 4096) := by
  obtain ⟨-, -, -, -, -, -, -, -, e0, e1⟩ := idx_facts t
  funext a; apply Fin.ext
  match a with
  | ⟨0, _⟩ => show win0_4.index t (0 : Fin 2) * 512 + 1 * b.val = b.val; rw [e0]; omega
  | ⟨1, _⟩ => show win0_4.index t (1 : Fin 2) * 512 + 1 * o.val = 512 * (t.val / 4) + o.val; rw [e1]; omega

/-- At a write-back point each stored entry is the linear layer's entry the block's place in the array names. -/
theorem flushed_entry (c : Dev nD) (t : Fin cfg0.N) (h3 : t.val % 4 = 3) (b o : Fin 512) :
    outAt V c t (ix2 b o) = G V c (((cfg0.win 4).blk t).view.emb (ix2 b o)) := by
  have hN := lt32 t
  have hcN : cfg0.N = 32 := N_0
  have ho : 512 * (t.val / 4) + o.val < 4096 := by omega
  rw [oblk_emb t b o ho]
  refine (out_four V c t ⟨t.val - 1, by omega⟩ ⟨t.val - 2, by omega⟩ ⟨t.val - 3, by omega⟩ h3 rfl rfl rfl b o).trans ?_
  refine Eq.trans ?_ (ySpec_blocks (V c main_arg0) (V c main_arg1) (V c main_arg2) (V c main_arg3) b ⟨512 * (t.val / 4) + o.val, ho⟩).symm
  rw [Fin.sum_univ_four, zero_add]
  rw [addend_eq V c ⟨t.val - 3, by omega⟩ b o 0 ⟨512 * (t.val / 4) + o.val, ho⟩ (by show (t.val - 3) % 4 = 0; omega) (by show 512 * ((t.val - 3) / 4) + o.val = 512 * (t.val / 4) + o.val; omega),
    addend_eq V c ⟨t.val - 2, by omega⟩ b o 1 ⟨512 * (t.val / 4) + o.val, ho⟩ (by show (t.val - 2) % 4 = 1; omega) (by show 512 * ((t.val - 2) / 4) + o.val = 512 * (t.val / 4) + o.val; omega),
    addend_eq V c ⟨t.val - 1, by omega⟩ b o 2 ⟨512 * (t.val / 4) + o.val, ho⟩ (by show (t.val - 1) % 4 = 2; omega) (by show 512 * ((t.val - 1) / 4) + o.val = 512 * (t.val / 4) + o.val; omega),
    addend_eq V c t b o 3 ⟨512 * (t.val / 4) + o.val, ho⟩ (by show t.val % 4 = 3; omega) rfl]

/-- WHAT A WRITE-BACK POINT WRITES BACK is its block of the linear layer. -/
theorem flushed_eq (c : Dev nD) (t : Fin cfg0.N) (hf : (cfg0.win 4).flush t = true) :
    (dat V c).flushed 4 t = ((cfg0.win 4).blk t).view.read (Elt Ideal) (G V c) := by
  have h3 : t.val % 4 = 3 := (flush0_4 t).mp hf
  show (cfg0.win 4).cut (grid0.coords t) ((dat V c).after 4 t) = _
  rw [after4]
  funext j
  obtain ⟨b, o, rfl⟩ : ∃ b o : Fin 512, j = ix2 b o := ⟨j 0, j 1, eq_ix2 (n0 := 512) (n1 := 512) j⟩
  exact flushed_entry V c t h3 b o

/-! ## The written-back blocks cover the result -/

/-- An entry of the result lies in point `t`'s block iff each coordinate lies in the block's range on its axis. -/
theorem mem_blk (t : Fin cfg0.N) (i : S512x4096.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v0).slice (win0_4.rect t)).set ↔ _
  rw [View.set_slice_whole, Rect.mem_set_unit]
  exact Iff.rfl

/-- Entry (b, oo) of the result lies in the block written back at point 4·(oo div 512) + 3. -/
theorem covered (i : S512x4096.Idx) :
    ∃ t : Fin cfg0.N, (cfg0.win 4).flush t = true ∧ i ∈ ((cfg0.win 4).blk t).view.set := by
  have hcN : cfg0.N = 32 := N_0
  have hi0 : (i 0).val < 512 := (i 0).isLt
  have hi1 : (i 1).val < 4096 := (i 1).isLt
  have ht : 4 * ((i 1).val / 512) + 3 < cfg0.N := by omega
  refine ⟨⟨4 * ((i 1).val / 512) + 3, ht⟩, (flush0_4 _).mpr (by show (4 * ((i 1).val / 512) + 3) % 4 = 3; omega), ?_⟩
  rw [mem_blk]
  obtain ⟨-, -, -, -, -, -, -, -, e0, e1⟩ := idx_facts ⟨4 * ((i 1).val / 512) + 3, ht⟩
  have e1' : win0_4.index ⟨4 * ((i 1).val / 512) + 3, ht⟩ (1 : Fin 2) = (4 * ((i 1).val / 512) + 3) / 4 := e1
  intro a
  match a with
  | ⟨0, _⟩ =>
    show win0_4.index ⟨4 * ((i 1).val / 512) + 3, ht⟩ (0 : Fin 2) * 512 ≤ (i 0).val
      ∧ (i 0).val < win0_4.index ⟨4 * ((i 1).val / 512) + 3, ht⟩ (0 : Fin 2) * 512 + 512
    rw [e0]; omega
  | ⟨1, _⟩ =>
    show win0_4.index ⟨4 * ((i 1).val / 512) + 3, ht⟩ (1 : Fin 2) * 512 ≤ (i 1).val
      ∧ (i 1).val < win0_4.index ⟨4 * ((i 1).val / 512) + 3, ht⟩ (1 : Fin 2) * 512 + 512
    rw [e1']; omega

end Layer

open Layer

/-! ## The region's result and its inputs -/

/-- The result array after the region is the linear layer of the arrays the region was entered with. -/
theorem out_value (c : Dev nD) :
    (dat V c).arrAt 4 cfg0.N = Cert.Spec.ySpec (V c main_arg0) (V c main_arg1) (V c main_arg2) (V c main_arg3) :=
  (dat V c).arrAt_eq_of_cover 4 (G V c) (flushed_eq V c) (fun i => covered i)

/-- Each input array is as the region found it. -/
theorem in_kept (c : Dev nD) (w : Fin cfg0.W) (hw : w.val < 4) :
    (dat V c).arrAt w cfg0.N = V c (Pipeline.arrRef spec0 w) := by
  obtain ⟨n, hn⟩ := w
  have hn4 : n < 4 := hw
  interval_cases n
  · exact ((dat V c).arrAt_in ⟨0, hn⟩ rfl _).trans (A_eq V c ⟨0, hn⟩)
  · exact ((dat V c).arrAt_in ⟨1, hn⟩ rfl _).trans (A_eq V c ⟨1, hn⟩)
  · exact ((dat V c).arrAt_in ⟨2, hn⟩ rfl _).trans (A_eq V c ⟨2, hn⟩)
  · exact ((dat V c).arrAt_in ⟨3, hn⟩ rfl _).trans (A_eq V c ⟨3, hn⟩)

end Cert.KernelIdeal.MM

end
-- ==== Proof.KlBlocks.lean ====
/-
  The divergence region: each input window's block at a grid point, read at an entry, is the array's entry at the block's
  offset. Point t = 4·o + i covers rows 512·o … and columns 1024·i … of each weight array, o = t div 4, i = t mod 4.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import proofs.«161406_j5574867550300_1_alg».proof.Proof.KlFrame
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KL

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three input windows' index maps, decided once over the 32 grid points: point `t` sits at row block `t div 4`
    and column block `t mod 4`. -/
theorem idx1 : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = t.val % 4
    ∧ win1_2.index t (0 : Fin 2) = t.val / 4 ∧ win1_2.index t (1 : Fin 2) = t.val % 4 :=
  (by decide +kernel : ∀ t : Fin grid1.N, _)

/-- The means' block: row r, lane l is the array's entry (512·(t div 4) + r, 1024·(t mod 4) + l). -/
theorem blk0_apply (c : Dev nD) (t : Fin cfg1.N) (ht : t.val < 32) (r : Fin 512) (l : Fin 1024) :
    (iblk V c 0 t : Vec F S512x1024 .f32) (ValueIdx.ix2 r l)
      = (V c main_arg1 : Vec F S4096x4096 .f32) (ValueIdx.ix2 (⟨512 * (t.val / 4) + r.val, by omega⟩ : Fin 4096) (⟨1024 * (t.val % 4) + l.val, by omega⟩ : Fin 4096)) := by
  obtain ⟨e0, e1, -, -, -, -⟩ := idx1 t
  unfold iblk
  show V c main_arg1 (((cfg1.win 0).blk t).view.emb (ValueIdx.ix2 r l)) = V c main_arg1 _
  refine congrArg (V c main_arg1) ?_
  funext a
  apply Fin.ext
  -- a block's coordinate on an axis is its index there times the block's extent, plus the coordinate inside the block
  match a with
  | ⟨0, _⟩ => show win1_0.index t (0 : Fin 2) * 512 + 1 * r.val = 512 * (t.val / 4) + r.val; omega
  | ⟨1, _⟩ => show win1_0.index t (1 : Fin 2) * 1024 + 1 * l.val = 1024 * (t.val % 4) + l.val; omega

/-- The raw scales' block: row r, lane l is the array's entry (512·(t div 4) + r, 1024·(t mod 4) + l). -/
theorem blk1_apply (c : Dev nD) (t : Fin cfg1.N) (ht : t.val < 32) (r : Fin 512) (l : Fin 1024) :
    (iblk V c 1 t : Vec F S512x1024 .f32) (ValueIdx.ix2 r l)
      = (V c main_arg2 : Vec F S4096x4096 .f32) (ValueIdx.ix2 (⟨512 * (t.val / 4) + r.val, by omega⟩ : Fin 4096) (⟨1024 * (t.val % 4) + l.val, by omega⟩ : Fin 4096)) := by
  obtain ⟨-, -, e0, e1, -, -⟩ := idx1 t
  unfold iblk
  show V c main_arg2 (((cfg1.win 1).blk t).view.emb (ValueIdx.ix2 r l)) = V c main_arg2 _
  refine congrArg (V c main_arg2) ?_
  funext a
  apply Fin.ext
  -- a block's coordinate on an axis is its index there times the block's extent, plus the coordinate inside the block
  match a with
  | ⟨0, _⟩ => show win1_1.index t (0 : Fin 2) * 512 + 1 * r.val = 512 * (t.val / 4) + r.val; omega
  | ⟨1, _⟩ => show win1_1.index t (1 : Fin 2) * 1024 + 1 * l.val = 1024 * (t.val % 4) + l.val; omega

/-- The noise' block: row r, lane l is the array's entry (512·(t div 4) + r, 1024·(t mod 4) + l). -/
theorem blk2_apply (c : Dev nD) (t : Fin cfg1.N) (ht : t.val < 32) (r : Fin 512) (l : Fin 1024) :
    (iblk V c 2 t : Vec F S512x1024 .f32) (ValueIdx.ix2 r l)
      = (V c main_arg3 : Vec F S4096x4096 .f32) (ValueIdx.ix2 (⟨512 * (t.val / 4) + r.val, by omega⟩ : Fin 4096) (⟨1024 * (t.val % 4) + l.val, by omega⟩ : Fin 4096)) := by
  obtain ⟨-, -, -, -, e0, e1⟩ := idx1 t
  unfold iblk
  show V c main_arg3 (((cfg1.win 2).blk t).view.emb (ValueIdx.ix2 r l)) = V c main_arg3 _
  refine congrArg (V c main_arg3) ?_
  funext a
  apply Fin.ext
  -- a block's coordinate on an axis is its index there times the block's extent, plus the coordinate inside the block
  match a with
  | ⟨0, _⟩ => show win1_2.index t (0 : Fin 2) * 512 + 1 * r.val = 512 * (t.val / 4) + r.val; omega
  | ⟨1, _⟩ => show win1_2.index t (1 : Fin 2) * 1024 + 1 * l.val = 1024 * (t.val % 4) + l.val; omega

end Cert.KernelIdeal.KL

end
-- ==== Proof.KlPieces.lean ====
/-
  The divergence region: what each case of the body leaves, as the body's own arithmetic.
  The pieces a run leaves in the 1×1 accumulator are one store of the accumulation step's value — the step applied to the
  three input blocks and to the accumulator it loaded: zero at the very first point (the reset's store is read back), else
  what the point before left. At the very last point the output buffer receives the accumulator just stored, divided by
  the number of weights.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import proofs.«161406_j5574867550300_1_alg».proof.Proof.KlRuns
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KL

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zeros, however spelt. -/
private theorem hz : (![0, 0] : Fin 2 → Nat) = fun _ => 0 := funext fun a => by fin_cases a <;> rfl

/-- After the first point: one step from zero. -/
theorem accFirst_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 x1 x2 : Vec F S512x1024 .f32) :
    accFirst c i arg2 harg2 arg3 harg3 arg4 harg4 arg5 harg5 arg6 harg6 hc0 hc1 x0 x1 x2 = k1_pay1 (k1_pay5 x0 x1 x2) (k1_pay6 x0 x1 x2) (k1_pay7 x0 x1 x2) (k1_pay3 (F := F)) := by
  unfold accFirst
  rw [View.read_writes_eq_canon _ _ _ (coverFirst c i arg2 harg2 arg3 harg3 arg4 harg4 arg5 harg5 arg6 harg6 hc0 hc1 x0 x1 x2)]
  unfold runFirst
  dsimp only
  sl_unfold_words
  -- two whole-buffer stores: the later one (the step's) is what remains, and the accumulator it loaded is the earlier
  -- one's zero read back whole
  rw [View.canon_cons_unit_zero (S := S1x1) hz, View.readCov_unit_zero (S := S1x1) _ hz]
  -- each input block is loaded whole from a whole buffer: the load reads the contents
  simp only [View.readAt_eq_ld, harg2.read_unread, harg3.read_unread, harg4.read_unread,
    View.ld_unit_zero (S := S512x1024) hz]

/-- After a point that is neither first nor last: one step from what the point before left. -/
theorem accMid_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 x1 x2 : Vec F S512x1024 .f32) (xs : Vec F S1x1 .f32) :
    accMid c i arg2 harg2 arg3 harg3 arg4 harg4 arg5 harg5 arg6 harg6 hc0 hc1 x0 x1 x2 xs = k1_pay1 (k1_pay5 x0 x1 x2) (k1_pay6 x0 x1 x2) (k1_pay7 x0 x1 x2) xs := by
  unfold accMid
  rw [View.read_writes_eq_canon _ _ _ (coverMid c i arg2 harg2 arg3 harg3 arg4 harg4 arg5 harg5 arg6 harg6 hc0 hc1 x0 x1 x2 xs)]
  unfold runMid
  dsimp only
  sl_unfold_words
  -- one whole-buffer store covers: what is read back is its payload
  rw [View.canon_unit_zero (S := S1x1) hz]
  -- each input block is loaded whole from a whole buffer: the load reads the contents (the accumulator's likewise)
  simp only [View.readAt_eq_ld, harg2.read_unread, harg3.read_unread, harg4.read_unread, harg6.read_unread,
    View.ld_unit_zero (S := S512x1024) hz, View.ld_unit_zero (S := S1x1) hz]

/-- After the last point: the same step. -/
theorem accLast_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) :
    accLast c i arg2 harg2 arg3 harg3 arg4 harg4 arg5 harg5 arg6 harg6 hc0 hc1 x0 x1 x2 xs = k1_pay1 (k1_pay5 x0 x1 x2) (k1_pay6 x0 x1 x2) (k1_pay7 x0 x1 x2) xs := by
  unfold accLast
  rw [View.read_writes_eq_canon _ _ _ (coverLastAcc c i arg2 harg2 arg3 harg3 arg4 harg4 arg5 harg5 arg6 harg6 hc0 hc1 x0 x1 x2 xs)]
  unfold runLast
  dsimp only
  sl_unfold_words
  -- as at a middle point: the last point's extra branch comes after the step's store and does not touch the accumulator
  rw [View.canon_unit_zero (S := S1x1) hz]
  -- each input block is loaded whole from a whole buffer: the load reads the contents (the accumulator's likewise)
  simp only [View.readAt_eq_ld, harg2.read_unread, harg3.read_unread, harg4.read_unread, harg6.read_unread,
    View.ld_unit_zero (S := S512x1024) hz, View.ld_unit_zero (S := S1x1) hz]

/-- The output buffer at the last point: the accumulator just stored, divided by the number of weights. -/
theorem outLast_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 x1 x2 : Vec F S512x1024 .f32) (xs : Vec F S1x1 .f32) :
    outLast c i arg2 harg2 arg3 harg3 arg4 harg4 arg5 harg5 arg6 harg6 hc0 hc1 x0 x1 x2 xs = k1_pay2 (k1_pay1 (k1_pay5 x0 x1 x2) (k1_pay6 x0 x1 x2) (k1_pay7 x0 x1 x2) xs) := by
  unfold outLast
  rw [View.read_writes_eq_canon _ _ _ (coverLastOut c i arg2 harg2 arg3 harg3 arg4 harg4 arg5 harg5 arg6 harg6 hc0 hc1 x0 x1 x2 xs)]
  unfold runLast
  dsimp only
  sl_unfold_words
  -- the output buffer's one whole store is the division applied to the accumulator loaded whole just after the
  -- step's whole store: that store's payload
  rw [View.canon_unit_zero (S := S1x1) hz, View.readCov_unit_zero (S := S1x1) _ hz]
  -- each input block is loaded whole from a whole buffer: the load reads the contents (the accumulator's likewise)
  simp only [View.readAt_eq_ld, harg2.read_unread, harg3.read_unread, harg4.read_unread, harg6.read_unread,
    View.ld_unit_zero (S := S512x1024) hz, View.ld_unit_zero (S := S1x1) hz]

end Cert.KernelIdeal.KL

end
-- ==== Proof.KlStep.lean ====
/-
  One accumulation step of the divergence kernel, read at its single entry, at the ideal instance.
  From a 512 × 1024 tile of means, raw scales and noise the step computes every weight's divergence term, sums each row
  over its 1024 lanes from zero, sums the 512 row sums from zero, and adds the tile's total to the 1×1 accumulator.
  The closing store divides the accumulator by the number of weights, 2²⁴.
-/
import proofs.«161406_j5574867550300_1_alg».proof.Proof.Spec
import proofs.«161406_j5574867550300_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KL

open Cert.KernelIdeal Cert.KernelIdeal.Gen Idealize.ShloMosaic

/-! ## The two reductions and the casts between them, read at an index -/

/-- The lane sum: row `r` of a 512 × 1024 array summed over its 1024 lanes. -/
theorem laneSum_apply (v : FVec Ideal S512x1024 .f32) (r : Fin 512) :
    multiReduction (F := Ideal) .add [1] S512 v 0x00000000#32 reduces_S512x1024_S512 (.inl rfl) rfl (ValueIdx.ix1 r)
      = ∑ l : Fin 1024, v (ValueIdx.ix2 r l) := by
  refine (Ideal.multiReduction_add_single v _ reduces_S512x1024_S512 (.inl rfl) rfl (ValueIdx.ix1 r)).trans ?_
  refine Finset.sum_congr rfl fun l _ => congrArg v ?_
  funext a
  refine Fin.ext ?_
  match a with
  | ⟨0, _⟩ => rfl
  | ⟨1, _⟩ => rfl

/-- The 512 row sums viewed as a 512 × 1 column: entry `(r, 0)` is row sum `r` (same row-major position). -/
theorem colCast_apply (v : FVec Ideal S512 .f32) (r : Fin 512) :
    shapeCast S512x1 v shapeCasts_S512_S512x1 (ValueIdx.ix2 r 0) = v (ValueIdx.ix1 r) :=
  shapeCast_apply v _ _ _ (by
    rw [Shape.rowMajor_val_one, Shape.rowMajor_val_two]
    show r.val = r.val * 1 + 0
    omega)

/-- The column sum: a 512 × 1 column summed over its 512 rows, at the result's one index. -/
theorem rowSum_apply (v : FVec Ideal S512x1 .f32) (j : S1.Idx) :
    multiReduction (F := Ideal) .add [0] S1 v 0x00000000#32 reduces_S512x1_S1 (.inl rfl) rfl j
      = ∑ r : Fin 512, v (ValueIdx.ix2 r 0) := by
  refine (Ideal.multiReduction_add_single v _ reduces_S512x1_S1 (.inl rfl) rfl j).trans ?_
  refine Finset.sum_congr rfl fun r _ => congrArg v ?_
  funext a
  refine Fin.ext ?_
  match a with
  | ⟨0, _⟩ => rfl
  | ⟨1, _⟩ =>
    show (j 0).val = 0
    have h1 : (j 0).val < 1 := (j 0).isLt
    omega

/-- The reset's stored value is zero. -/
theorem pay3_apply (j : S1x1.Idx) : k1_pay3 (F := Ideal) j = 0 := by
  unfold k1_pay3
  rw [shapeCast_self]
  exact Ideal.ofBits_zero_f32

/-- One step: the accumulator plus the tile's total of the divergence terms. Arguments: means, raw scales, noise. -/
theorem pay1_apply (xμ xσ xε : Vec Ideal S512x1024 .f32) (xs : Vec Ideal S1x1 .f32) (j : S1x1.Idx) :
    k1_pay1 (F := Ideal) (k1_pay5 xμ xσ xε) (k1_pay6 xμ xσ xε) (k1_pay7 xμ xσ xε) xs j
      = xs j + ∑ r : Fin 512, ∑ l : Fin 1024,
          Cert.Spec.klTerm (F := Ideal) (xμ (ValueIdx.ix2 r l)) (xσ (ValueIdx.ix2 r l)) (xε (ValueIdx.ix2 r l)) := by
  unfold k1_pay1
  rw [shapeCast_self, ValueIdx.addf_apply]
  refine congrArg (xs j + ·) ?_
  -- the 1 × 1 view of the one-entry total
  refine (shapeCast_addUnit_apply ![1] _ shapeCasts_S1_S1x1 j).trans ?_
  -- the total is the sum of the row sums, each the sum of its row's terms
  refine (rowSum_apply _ _).trans ?_
  refine Finset.sum_congr rfl fun r _ => ?_
  refine (colCast_apply _ r).trans ?_
  refine (laneSum_apply _ r).trans ?_
  -- the step's arithmetic at one index is the divergence term of the three operands there
  exact Finset.sum_congr rfl fun l _ => rfl

/-- The closing store's value: the accumulator divided by the number of weights. -/
theorem pay2_apply (v : Vec Ideal S1x1 .f32) (j : S1x1.Idx) :
    k1_pay2 (F := Ideal) v j = FloatOps.divf (v j) (Cert.Spec.cN (F := Ideal)) := by
  rfl

end Cert.KernelIdeal.KL

end
-- ==== Proof.KlValue.lean ====
/-
  The divergence region's value, at the ideal instance.

  The grid has 32 points; point t reads, of each of the three weight arrays (means, raw scales, noise), the 512 × 1024
  tile at row block t / 4 and column block t % 4. The accumulator after point t is one step from what the point before
  left (from zero at point 0), and one step adds the tile's total of the per-weight divergence terms: so the accumulator
  after point t is the sum of the totals of the tiles 0 … t, and after the last point the sum over all 32 tiles, which
  is the sum over every weight. The last point stores that sum divided by the number of weights into the output window's
  buffer; the window is written back there and nowhere else, and its one 1 × 1 block is the whole result array.
-/
import proofs.«161406_j5574867550300_1_alg».proof.Proof.KlFrame
import proofs.«161406_j5574867550300_1_alg».proof.Proof.KlBlocks
import proofs.«161406_j5574867550300_1_alg».proof.Proof.KlPieces
import proofs.«161406_j5574867550300_1_alg».proof.Proof.KlStep
import proofs.«161406_j5574867550300_1_alg».proof.Proof.Sums
import proofs.«161406_j5574867550300_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KL

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## A tile's entries in the 4096 × 4096 arrays -/

/-- Row r, lane l of tile t, as an entry of a 4096 × 4096 array. -/
abbrev tileIx (t : Fin 32) (r : Fin 512) (l : Fin 1024) : Cert.Spec.SW.Idx :=
  ValueIdx.ix2 (⟨512 * (t.val / 4) + r.val, by omega⟩ : Fin 4096) (⟨1024 * (t.val % 4) + l.val, by omega⟩ : Fin 4096)

/-! ## One tile's total, and the accumulator as the running sum of the totals -/

/-- The total of the divergence terms over tile t of the three arrays the region was entered with. -/
def tileTotal (c : Dev nD) (t : Fin 32) : EReal :=
  ∑ r : Fin 512, ∑ l : Fin 1024,
    Cert.Spec.klTerm (F := Ideal) (V c main_arg1 (tileIx t r l)) (V c main_arg2 (tileIx t r l)) (V c main_arg3 (tileIx t r l))

/-- The same as a sequence over ℕ, zero past the grid. -/
def tileSeq (c : Dev nD) (n : ℕ) : EReal := if h : n < 32 then tileTotal V c ⟨n, h⟩ else 0

/-- One step over the blocks of point t adds tile t's total. -/
theorem step_apply (c : Dev nD) (t : Fin cfg1.N) (xs : Vec Ideal S1x1 .f32) (j : S1x1.Idx) :
    k1_pay1 (F := Ideal) (k1_pay5 (iblk V c 0 t) (iblk V c 1 t) (iblk V c 2 t)) (k1_pay6 (iblk V c 0 t) (iblk V c 1 t) (iblk V c 2 t))
        (k1_pay7 (iblk V c 0 t) (iblk V c 1 t) (iblk V c 2 t)) xs j
      = xs j + tileSeq V c t.val := by
  have hN : t.val < 32 := lt_of_lt_of_eq t.isLt N_1
  rw [pay1_apply, tileSeq, dif_pos hN, tileTotal]
  refine congrArg (xs j + ·) (Finset.sum_congr rfl fun r _ => Finset.sum_congr rfl fun l _ => ?_)
  rw [blk0_apply V c t hN, blk1_apply V c t hN, blk2_apply V c t hN]

/-- After point 0: tile 0's total, from zero. -/
theorem acc_first (c : Dev nD) (t : Fin cfg1.N) (h0 : t.val = 0) (j : S1x1.Idx) :
    accAt V c t.val t.isLt j = 0 + tileSeq V c t.val := by
  have hc0 : condFirst (grid1.coords t) := (condFirst_iff t).mpr h0
  have hc1 : ¬condLast (grid1.coords t) := fun h => by have := (condLast_iff t).mp h; omega
  rw [accAt_first V c t h0 hc0 hc1,
    accFirst_eq c (grid1.coords t) (ms0 t) (hs0 t) (ms1 t) (hs1 t) (ms2 t) (hs2 t) (ms3 t) (hs3 t) accM (Memref.isWhole_whole _) hc0 hc1
      (iblk V c 0 t) (iblk V c 1 t) (iblk V c 2 t),
    step_apply V c t _ j, pay3_apply]

/-- After a later point: what the point before left, plus the point's tile's total. -/
theorem acc_next (c : Dev nD) (t : Fin cfg1.N) (h0 : ¬t.val = 0) (j : S1x1.Idx) :
    accAt V c t.val t.isLt j
      = accAt V c (t.val - 1) (Nat.lt_of_le_of_lt (Nat.sub_le _ _) t.isLt) j + tileSeq V c t.val := by
  have hc0 : ¬condFirst (grid1.coords t) := fun h => h0 ((condFirst_iff t).mp h)
  by_cases h1 : t.val = 31
  · have hc1 : condLast (grid1.coords t) := (condLast_iff t).mpr h1
    rw [accAt_last V c t h0 h1 hc0 hc1,
      accLast_eq c (grid1.coords t) (ms0 t) (hs0 t) (ms1 t) (hs1 t) (ms2 t) (hs2 t) (ms3 t) (hs3 t) accM (Memref.isWhole_whole _) hc0 hc1
        (iblk V c 0 t) (iblk V c 1 t) (iblk V c 2 t) (accAt V c (t.val - 1) (Nat.lt_of_le_of_lt (Nat.sub_le _ _) t.isLt)),
      step_apply V c t _ j]
  · have hc1 : ¬condLast (grid1.coords t) := fun h => h1 ((condLast_iff t).mp h)
    rw [accAt_mid V c t h0 h1 hc0 hc1,
      accMid_eq c (grid1.coords t) (ms0 t) (hs0 t) (ms1 t) (hs1 t) (ms2 t) (hs2 t) (ms3 t) (hs3 t) accM (Memref.isWhole_whole _) hc0 hc1
        (iblk V c 0 t) (iblk V c 1 t) (iblk V c 2 t) (accAt V c (t.val - 1) (Nat.lt_of_le_of_lt (Nat.sub_le _ _) t.isLt)),
      step_apply V c t _ j]

/-- The accumulator after point n is the sum of the totals of the tiles 0 … n. -/
theorem acc_sum (c : Dev nD) (j : S1x1.Idx) :
    ∀ (n : ℕ) (hn : n < cfg1.N), accAt V c n hn j = ∑ i ∈ Finset.range (n + 1), tileSeq V c i
  | 0, hn => by
    rw [acc_first V c ⟨0, hn⟩ rfl j, zero_add, Finset.sum_range_one]
  | n + 1, hn => by
    rw [acc_next V c ⟨n + 1, hn⟩ (Nat.succ_ne_zero n) j, Finset.sum_range_succ _ (n + 1)]
    exact congrArg (· + tileSeq V c (n + 1)) (acc_sum c j n (Nat.lt_of_succ_lt hn))

/-- The 32 tiles' totals add up to the sum of the divergence terms over every weight. -/
theorem total_eq (c : Dev nD) :
    ∑ i ∈ Finset.range 32, tileSeq V c i
      = ∑ j : Cert.Spec.SW.Idx, Cert.Spec.klTerm (F := Ideal) (V c main_arg1 j) (V c main_arg2 j) (V c main_arg3 j) := by
  rw [Cert.Proof.Sums.sum_range_32, Cert.Proof.Sums.sum_tiles]
  refine Finset.sum_congr rfl fun t _ => ?_
  rw [tileSeq, dif_pos t.isLt]
  rfl

/-! ## The output window's buffer at the last point, and the result array -/

/-- The last point. -/
abbrev tLast : Fin cfg1.N := ⟨31, lt_of_lt_of_eq (by decide : 31 < 32) N_1.symm⟩

/-- What the last point stores into the output window's buffer: the sum over every weight, divided by their number. -/
theorem out_last (c : Dev nD) (j : S1x1.Idx) :
    outAt V c tLast j
      = FloatOps.divf (∑ j' : Cert.Spec.SW.Idx, Cert.Spec.klTerm (F := Ideal) (V c main_arg1 j') (V c main_arg2 j') (V c main_arg3 j'))
          (Cert.Spec.cN (F := Ideal)) := by
  have hc0 : ¬condFirst (grid1.coords tLast) := fun h => absurd ((condFirst_iff tLast).mp h) (by decide)
  have hc1 : condLast (grid1.coords tLast) := (condLast_iff tLast).mpr rfl
  rw [outAt_last V c tLast rfl hc0 hc1,
    outLast_eq c (grid1.coords tLast) (ms0 tLast) (hs0 tLast) (ms1 tLast) (hs1 tLast) (ms2 tLast) (hs2 tLast) (ms3 tLast) (hs3 tLast) accM
      (Memref.isWhole_whole _) hc0 hc1 (iblk V c 0 tLast) (iblk V c 1 tLast) (iblk V c 2 tLast)
      (accAt V c (tLast.val - 1) (Nat.lt_of_le_of_lt (Nat.sub_le _ _) tLast.isLt)),
    pay2_apply, step_apply V c tLast _ j, acc_sum V c j]
  refine congrArg (fun s : Ideal .f32 => FloatOps.divf s (Cert.Spec.cN (F := Ideal))) ?_
  show ∑ i ∈ Finset.range 31, tileSeq V c i + tileSeq V c 31 = _
  rw [← Finset.sum_range_succ, total_eq]

/-- The result array's contents after the region: what the last point stored (its one block is the whole array). -/
abbrev result (c : Dev nD) : Buf (Elt Ideal) ((c : Thread nD τ).loc main_v1) := outAt V c tLast

/-- The output window's block at the last point: on each axis it starts at 0 and has extent 1, the array's own. -/
theorem last_block : ∀ a : Fin 2, win1_3.index tLast a * win1_3.size a = 0 ∧ win1_3.xsize (grid1.coords tLast) a = 1
    ∧ main_v1.ty.shape.size a = 1 := by
  decide +kernel

/-- The one write-back, at the last point, writes it: the block at offsets zero with the array's own extents, read
    back, is the array. -/
theorem flushed_eq (c : Dev nD) (t : Fin cfg1.N) (hf : (cfg1.win 3).flush t = true) :
    (dat V c).flushed 3 t = ((cfg1.win 3).blk t).view.read (Elt Ideal) (result V c) := by
  have hN : t.val < 32 := lt_of_lt_of_eq t.isLt N_1
  have h31 : t.val = 31 := by have := (flush1_3 t).mp hf; omega
  obtain rfl : t = tLast := Fin.ext h31
  show (cfg1.win 3).cut (grid1.coords tLast) ((dat V c).after 3 tLast) = _
  rw [after3]
  have hz' : (fun a => win1_3.index tLast a * main_v1.ty.shape.size a) = fun _ => 0 := funext fun a => (last_block a).1
  exact (Memref.read_access_unit_zero (Elt Ideal) main_v1 hz' (fun a => by rw [congrFun hz' a]; simp) (result V c)).symm

/-- So the result array ends holding what the last point stored: that point's block holds every index. -/
theorem final_out (c : Dev nD) : (dat V c).arrAt 3 cfg1.N = result V c :=
  (dat V c).arrAt_eq_of_cover 3 (result V c) (flushed_eq V c) fun i =>
    ⟨tLast, (flush1_3 tLast).mpr rfl, by
      show i ∈ ((View.whole main_v1).slice (win1_3.rect tLast)).set
      rw [View.set_slice_whole, Rect.mem_set_unit]
      intro a
      obtain ⟨ho, hx, hs⟩ := last_block a
      have hi : (i a : Nat) < main_v1.ty.shape.size a := (i a).isLt
      show win1_3.index tLast a * win1_3.size a ≤ (i a : Nat)
        ∧ (i a : Nat) < win1_3.index tLast a * win1_3.size a + win1_3.xsize (grid1.coords tLast) a
      rw [ho, hx]
      omega⟩

/-! ## The two facts -/

/-- The 1×1 result after the region is the mean divergence of the weight arrays the region was entered with. -/
theorem out_value (V : (c : Dev nD) → (b : Ref sig .tc) → Buf (Elt Ideal) ((c : Thread nD τ).loc b)) (c : Dev nD) (j : S1x1.Idx) (i : Cert.Spec.S0.Idx) :
    (dat V c).arrAt 3 cfg1.N j = Cert.Spec.klSpec (V c main_arg1) (V c main_arg2) (V c main_arg3) i := by
  rw [final_out V c]
  show outAt V c tLast j = _
  rw [out_last V c j]
  unfold Cert.Spec.klSpec
  show _ = FloatOps.divf (Ideal.ofBits .f32 0x00000000#32 + _) _
  rw [Ideal.ofBits_zero_f32, zero_add]

/-- Each input array is as the region found it. -/
theorem in_kept (V : (c : Dev nD) → (b : Ref sig .tc) → Buf (Elt Ideal) ((c : Thread nD τ).loc b)) (c : Dev nD) (w : Fin cfg1.W) (hw : w.val < 3) :
    (dat V c).arrAt w cfg1.N = V c (Pipeline.arrRef spec1 w) := by
  match w, hw with
  | ⟨0, _⟩, _ => exact ((dat V c).arrAt_in 0 rfl _).trans (A_eq V c 0)
  | ⟨1, _⟩, _ => exact ((dat V c).arrAt_in 1 rfl _).trans (A_eq V c 1)
  | ⟨2, _⟩, _ => exact ((dat V c).arrAt_in 2 rfl _).trans (A_eq V c 2)

end Cert.KernelIdeal.KL

end
-- ==== Proof.ValueRun.lean ====
/-
  The idealized program's run with its two results named, at the ideal instance.
  The linear layer's result is what the first region's pipeline leaves in its output array, which is the specification's
  `ySpec` of the launch arrays. The divergence is the closing reshape of the second region's 1×1 output array, which is
  the specification's `klSpec` of the weight arrays as the second region finds them — and the first region leaves them
  as launched.
-/
import proofs.«161406_j5574867550300_1_alg».proof.Proof.Gen.KernelIdeal.Launch
import proofs.«161406_j5574867550300_1_alg».proof.Proof.Gen.KernelIdeal.Skeleton
import proofs.«161406_j5574867550300_1_alg».proof.Proof.Gen.KernelIdeal.Points
import proofs.«161406_j5574867550300_1_alg».proof.Proof.Run
import proofs.«161406_j5574867550300_1_alg».proof.Proof.MatmulValue
import proofs.«161406_j5574867550300_1_alg».proof.Proof.KlValue
import proofs.«161406_j5574867550300_1_alg».proof.Proof.Spec
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The closing reshape's result: the second region's 1×1 output array read as a scalar. -/
theorem W3_v2 (c : Dev nD) :
    W3 m c (Proc.devRef .tc main_v2) = fun i => shapeCast S_ (W2 m c (Proc.devRef .tc main_v1)) shapeCasts_S1x1_S_ i := by
  show StableHlo.after hostOps2 (W2 m c) (Proc.devRef .tc main_v2) = _
  after_results
  rfl

/-- The divergence after the run is the mean of the per-weight terms of the launch arrays. -/
theorem kl_read (c : Dev nD) :
    W3 m c (Proc.devRef .tc main_v2) = Cert.Spec.klSpec (m ((c.tc : Thread nD τ).loc main_arg1)) (m ((c.tc : Thread nD τ).loc main_arg2)) (m ((c.tc : Thread nD τ).loc main_arg3)) := by
  rw [W3_v2]
  funext i
  have h1 : W2 m c (Proc.devRef .tc main_v1) = (KL.dat (V1 m) c).arrAt 3 cfg1.N := W2_arr m c 3
  have e1 : V1 m c main_arg1 = (m ((c.tc : Thread nD τ).loc main_arg1)) := W1_arg1 m c
  have e2 : V1 m c main_arg2 = (m ((c.tc : Thread nD τ).loc main_arg2)) := W1_arg2 m c
  have e3 : V1 m c main_arg3 = (m ((c.tc : Thread nD τ).loc main_arg3)) := W1_arg3 m c
  rw [h1]
  refine (KL.out_value (V1 m) c _ i).trans ?_
  rw [e1, e2, e3]

/-- From any memory with zero counters the idealized program terminates without a fault, its two results at the
    specification's values of the launch arrays and its four arguments as launched. -/
theorem value_run : θ_run defs (onTc (τ := τ) (main (F := Ideal))) ⟨m, fun _ => 0, ρ⟩ (fun r => ∀ c : Dev nD,
      r.2.mem ((c.tc : Thread nD τ).loc main_v0) = Cert.Spec.ySpec (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2) = Cert.Spec.klSpec (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans ((W3_v0 m c).trans (MM.out_value (V0 m) c)),
     (h c _ (mem_uc main_v2 (by decide))).trans (kl_read m c),
     (h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c)⟩) (run_all m ρ)

end Cert.KernelIdeal.Run

end
-- ==== Proof.lean ====
/-
  The certificate's claim, assembled.

  The program is a variational linear layer: from activations x and three weight arrays (means μ, raw scales σ, noise ε) it
  returns y = x · weightᵀ with weight = μ + softplus σ · ε, and the mean over all weights of a divergence term. The kernel
  computes y on an 8 × 4 grid with a 512×512 accumulator over the four reduction blocks, and the divergence on the same grid
  with a 1×1 accumulator over all 32 tiles, divided by the number of weights at the last point; the reference computes both
  with whole-array operations.

  * Both kernel programs' frames (the word-level one and the idealized one) are the same run, read at the two float
    instances: every weakly fair execution ends without a fault with every unscoped buffer at known contents, and the
    arguments among them are as launched.
  * The reference's frame is its run with the results dropped.
  * The ideal pass rewrote nothing, so the idealization is the program's own text: nothing to preserve.
  * At the ideal instance both programs end at the specification's two functions of the launch arrays: the kernel's blocks
    and partial sums regroup to the reference's whole sums by associativity and commutativity of addition on the extended
    reals alone, so the precondition is never opened.
-/
import proofs.«161406_j5574867550300_1_alg».proof.Defs
import proofs.«161406_j5574867550300_1_alg».proof.Proof.Gen.Kernel
import proofs.«161406_j5574867550300_1_alg».proof.Proof.Gen.KernelIdeal
import proofs.«161406_j5574867550300_1_alg».proof.Proof.Gen.ReferenceIdeal
import proofs.«161406_j5574867550300_1_alg».proof.Proof.Gen.Pre_finite_inputs
import proofs.«161406_j5574867550300_1_alg».proof.Proof.RefFrame
import proofs.«161406_j5574867550300_1_alg».proof.Proof.RefValue
import proofs.«161406_j5574867550300_1_alg».proof.Proof.BitsRun
import proofs.«161406_j5574867550300_1_alg».proof.Proof.ValueRun
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_k : Cert.frame_Kernel := fun m ρ _ => Cert.Kernel.Run.frame_any (F := Bits) m ρ

/-- So does the idealized one. -/
theorem frame_ki : Cert.frame_KernelIdeal := fun m ρ _ => Cert.KernelIdeal.Run.frame_any (F := Ideal) m ρ

/-- At the ideal instance the kernel's two results and the reference's are the specification's functions of arguments that agree. -/
theorem algebraic : Cert.algebraic_KernelIdeal_ReferenceIdeal := by
  intro m ρ m' ρ' _ hagree
  refine ⟨_, _, Cert.KernelIdeal.Run.value_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v40_eq, Cert.Proof.RefValue.ref_y,
      (hagree c).1, (hagree c).2.1, (hagree c).2.2.1, (hagree c).2.2.2]
  · rw [(h c).2.1, Cert.ReferenceIdeal.Read.val_main_v39_eq, Cert.Proof.RefValue.ref_kl,
      (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, algebraic⟩

end Cert.Proof

end
